-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S1x2048 : Shape := ⟨2, ![1, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S2048x8192 .f32) (main_arg3 : FVec F S1x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S1x2048 : Shape := ⟨2, ![1, 2048]⟩
abbrev S2048x1 : Shape := ⟨2, ![2048, 1]⟩
abbrev S8192x1 : Shape := ⟨2, ![8192, 1]⟩
abbrev S_ : Shape := ⟨0, ![]⟩
abbrev S8192x8192 : Shape := ⟨2, ![8192, 8192]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S512x512 : Shape := ⟨2, ![512, 512]⟩
abbrev S2048x512 : Shape := ⟨2, ![2048, 512]⟩

abbrev nBuf : Space → Nat
  | .hbm => 16
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S2048x8192, .bf16⟩
  | .hbm, ⟨7, _⟩ => ⟨S2048x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .i1⟩
  | .hbm, ⟨12, _⟩ => ⟨S8192x1, .f32⟩
  | .hbm, ⟨13, _⟩ => ⟨S8192x8192, .bf16⟩
  | .hbm, ⟨14, _⟩ => ⟨S8192x2048, .f32⟩
  | .hbm, ⟨15, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .f32⟩
  | .local _ .vmem, ⟨11, _⟩ => ⟨S512x2048, .f32⟩
  | .local _ .vmem, ⟨12, _⟩ => ⟨S512x1, .f32⟩
  | .local _ .vmem, ⟨13, _⟩ => ⟨S512x1, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x2048x2048_S8192x2048 : S4x2048x2048.ShapeCasts S8192x2048
  bitsLt_bf16_f32 : FTy.bits .bf16 < FTy.bits .f32
  transposes_S1x2048_S2048x1_1_0 : S1x2048.Transposes [1, 0] S2048x1
  bcast_S_S8192x1 : S_.BroadcastsInDim S8192x1 (![] : Fin 0 → Fin S8192x1.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S8192x2048_S4x2048x2048 : S8192x2048.ShapeCasts S4x2048x2048
  dot_S8192x2048_S2048x1_S8192x1_1_0_0_1_n_n_wf : DotDims.WF S8192x2048 S2048x1 S8192x1 [1] [0] [0] [1] [] []
  dot_S512x2048_S2048x1024_S512x1024_1_0_0_1_n_n_wf : DotDims.WF S512x2048 S2048x1024 S512x1024 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .bf16 = 32 ∨ (Rect.block (s := S8192x8192) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .bf16 = 32 ∨ (Rect.block (s := S8192x8192) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x8192.size a
  hwx1_1 : ∀ i : grid1.Coords, EltTy.bits .bf16 = 32 ∨ (Rect.block (s := S2048x8192) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S8192x2048.size a
  hwx1_4 : ∀ i : grid1.Coords, EltTy.bits .f32 = 32 ∨ (Rect.block (s := S8192x2048) S512x2048.size (cc1_transform_4 i) (hinb1_4 i)).WholeWords (EltTy.packing .f32)

variable [Facts₀]

def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S1x2048 : Shape := ⟨2, ![1, 2048]⟩
abbrev S4x2048x1 : Shape := ⟨3, ![4, 2048, 1]⟩
abbrev S4x2048 : Shape := ⟨2, ![4, 2048]⟩
abbrev S_ : Shape := ⟨0, ![]⟩
abbrev S4x2048x8192 : Shape := ⟨3, ![4, 2048, 8192]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S1x2048, .f32⟩
  | .hbm, ⟨4, _⟩ => ⟨S4x2048x1, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .i1⟩
  | .hbm, ⟨17, _⟩ => ⟨S4x2048, .f32⟩
  | .hbm, ⟨18, _⟩ => ⟨S4x2048, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .i1⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x8192, .f32⟩
  | .hbm, ⟨37, _⟩ => ⟨S_, .f32⟩
  | .hbm, ⟨38, _⟩ => ⟨S4x2048x8192, .f32⟩
  | .hbm, ⟨39, _⟩ => ⟨S4x2048x8192, .f32⟩
  | .hbm, ⟨40, _⟩ => ⟨S4x2048x8192, .f32⟩
  | .hbm, ⟨41, _⟩ => ⟨S4x2048x2048, .f32⟩
  | .hbm, ⟨42, _⟩ => ⟨S4x2048x1, .i1⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S_, .f32⟩
  | .hbm, ⟨48, _⟩ => ⟨S4x2048x2048, .i1⟩
  | .hbm, ⟨49, _⟩ => ⟨S4x2048x2048, .f32⟩
  | .hbm, ⟨50, _⟩ => ⟨S4x2048x2048, .f32⟩
  | .hbm, ⟨51, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  shapeCasts_S4x2048x1_S4x2048 : S4x2048x1.ShapeCasts S4x2048
  bcast_S_S4x2048 : S_.BroadcastsInDim S4x2048 (![] : Fin 0 → Fin S4x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x8192 : S_.BroadcastsInDim S4x2048x8192 (![] : Fin 0 → Fin S4x2048x8192.rank)
  bcast_S_S4x2048x2048 : S_.BroadcastsInDim S4x2048x2048 (![] : Fin 0 → Fin S4x2048x2048.rank)
  dot_S4x2048x2048_S1x2048_S4x2048x1_2_1_01_0_n_n_wf : DotDims.WF S4x2048x2048 S1x2048 S4x2048x1 [2] [1] [0, 1] [0] [] []
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S1x2048_S4x2048x1_2_1_01_0_n_n : DotDims S4x2048x2048 S1x2048 S4x2048x1 where
  lhsContracting := [2]
  rhsContracting := [1]
  lhsNonContracting := [0, 1]
  rhsNonContracting := [0]
  lhsBatch := []
  rhsBatch := []
  wf := dot_S4x2048x2048_S1x2048_S4x2048x1_2_1_01_0_n_n_wf
def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KUp.lean ====
/- Region 0 of the feed-forward block (the up-projection): at every grid point the body reads the x block and the
   w_fc block from their staging buffers and leaves relu(rmsnorm(x)·w_fcᵀ)² in the output window's buffer. This file
   states what each window's buffer holds before and after the body at a point, proves the body's triple over its
   memory operations, and derives the pipeline's body obligation for the region. -/
import proofs.«176752_j57312043598493_1_alg».proof.Proof.Gen.Kernel.Launch
import proofs.«176752_j57312043598493_1_alg».proof.Proof.Gen.Kernel.Skeleton
import proofs.«176752_j57312043598493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2048 := Rect.unit (s := S512x2048) ![0, 0] S512x2048.size inb_S512x2048_S512x2048_0_0
abbrev r0_1 : Rect S1024x2048 := Rect.unit (s := S1024x2048) ![0, 0] S1024x2048.size inb_S1024x2048_S1024x2048_0_0
abbrev r0_2 : Rect S512x1024 := Rect.unit (s := S512x1024) ![0, 0] S512x1024.size inb_S512x1024_S512x1024_0_0

/-- What the body leaves in the output window's buffer, from the two input blocks. -/
def out0_2 (x0 : Vec F S512x2048 .f32) (x1 : Vec F S1024x2048 .bf16) : Vec F S512x1024 .bf16 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current staging buffer holds its block at every point, fetched there or not (it is fetched only
    where the second grid coordinate is 0, and between fetches its block index does not move), for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's single store is the whole output buffer, so it covers it. -/
theorem cover0_2 (p0 : Vec F S512x1024 .bf16) (y : S512x1024.Idx) :
    ∃ pc ∈ ([⟨r0_2, p0⟩] : List (View.Piece (Elt F) S512x1024 .bf16)), y ∈ pc.1.set :=
  View.cover_of_tiled [⟨r0_2, p0⟩] S512x1024.size (by rfl) y

set_option maxHeartbeats 1000000 in
/-- The body on whole staging memrefs, the inputs' at read contents `x0`, `x1` and the output's at anything, runs to
    the continuation holding the inputs' as they were and the output's at `out0_2` of the inputs'. The output buffer is
    also read once before the store (the value is not used), which is why it is owned at some contents. -/
theorem sound_kernel0 (c : Dev nD) (E : Set ℕ) (i : grid0.Coords)
    (arg2 : Memref sig .tc .vmem S512x2048 .f32) (harg2 : arg2.IsWhole)
    (arg3 : Memref sig .tc .vmem S1024x2048 .bf16) (harg3 : arg3.IsWhole)
    (arg4 : Memref sig .tc .vmem S512x1024 .bf16) (harg4 : arg4.IsWhole)
    (x0 : Vec F S512x2048 .f32) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__ffn_up_kernel i arg2 harg2 arg3 harg3 arg4 harg4) K := by
  simp only [cc0__ffn_up_kernel_eq_skeleton]; unfold cc0__ffn_up_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the region, at every point. -/
theorem body_obligation0 (c : Dev nD) : BodyObligation (dat0 (F := F) V c) (defs₀ (F := F)) Variants.none () Set.univ := fun t => by
  rw [bigSep_W0, bigSep_W0]
  exact sound_body0 V c t

end Cert.Kernel.Up

end
-- ==== Proof.KDownShared.lean ====
/- Region 1 of the feed-forward block (the down-projection), the part its three cases share. The grid is 16 x 16; the
   second coordinate f runs over the blocks of the hidden axis. A scratch accumulator [512, 2048] is carried along f:
   zeroed where f = 0, increased by h_blk · w_proj_blkᵀ at every point, and where f = 15 the output block x + acc · mask
   is stored from it. This file states each input window's block at a point, the two conditions the body branches on in
   closed form over the grid, where the output window is idle, and the region invariant with the accumulator owned as
   a memref. -/
import proofs.«176752_j57312043598493_1_alg».proof.Proof.Gen.Kernel.Launch
import proofs.«176752_j57312043598493_1_alg».proof.Proof.Gen.Kernel.Skeleton
import proofs.«176752_j57312043598493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the h block, fetched at every point): its current staging buffer holds its block at every point,
    for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the w_proj block, fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the x block): it is fetched only where f = 0, and between fetches its block index does
    not move, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for input window 3 (the mask block), fetched only where f = 0. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (f = 0: the accumulator is zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (f = 15: the output block is stored), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where f = 0 the output window is idle: the body stores nothing into it, -/
theorem idleAt1_4_A : ∀ t : Fin cfg1.N, cond1_0 (grid1.coords t) → ¬cond1_1 (grid1.coords t) → cfg1.idle 4 (grid1.coords t) = true := by decide +kernel
/-- and the pipeline does not write its block back. -/
theorem noFlush1_4_A : ∀ t : Fin cfg1.N, cond1_0 (grid1.coords t) → ¬cond1_1 (grid1.coords t) → (cfg1.win 4).flush t = false := by decide +kernel
/-- Where 0 < f < 15 the same: idle, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- Where f = 15 the output window is live: the body stores its block. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S512x2048 .f32 := (Memref.whole cc1_stg4_0 : Memref sig .tc .vmem S512x2048 .f32).view
/-- Each window's current staging memref at point `t`, spelled as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S512x2048 .f32 := Memref.whole cc1_scratch0
/-- The accumulator as a view: what it holds is stated through it. -/
abbrev VS1_0 : View sig .tc .vmem S512x2048 .f32 := scM1_0.view

/-! ## The region invariant -/

/-- The core's scoped buffers this region never touches (the six staging buffers of the up-projection's pipeline), each
    whole at some contents. -/
def Others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Separating conjunction re-associated: six conjuncts and a seventh beside an eighth, the six grouped. -/
theorem sep_group6 (A0 A1 A2 A3 A4 A5 S G : sProp 𝕄) :
    iprop((A0 ∗ A1 ∗ A2 ∗ A3 ∗ A4 ∗ A5 ∗ S) ∗ G) = iprop(((A0 ∗ A1 ∗ A2 ∗ A3 ∗ A4 ∗ A5) ∗ S) ∗ G) :=
  BI.Entails.antisymm
    (show iprop((A0 ∗ A1 ∗ A2 ∗ A3 ∗ A4 ∗ A5 ∗ S) ∗ G) ⊢ iprop(((A0 ∗ A1 ∗ A2 ∗ A3 ∗ A4 ∗ A5) ∗ S) ∗ G) from by
      iintro ⟨⟨R0, R1, R2, R3, R4, R5, HS⟩, Hg⟩
      isplitr [Hg]
      swap; · iexact Hg
      isplitr [HS]
      swap; · iexact HS
      isplitl [R0]; · iexact R0
      isplitl [R1]; · iexact R1
      isplitl [R2]; · iexact R2
      isplitl [R3]; · iexact R3
      isplitl [R4]; · iexact R4
      iexact R5)
    (show iprop(((A0 ∗ A1 ∗ A2 ∗ A3 ∗ A4 ∗ A5) ∗ S) ∗ G) ⊢ iprop((A0 ∗ A1 ∗ A2 ∗ A3 ∗ A4 ∗ A5 ∗ S) ∗ G) from by
      iintro ⟨⟨⟨R0, R1, R2, R3, R4, R5⟩, HS⟩, Hg⟩
      isplitr [Hg]
      swap; · iexact Hg
      isplitl [R0]; · iexact R0
      isplitl [R1]; · iexact R1
      isplitl [R2]; · iexact R2
      isplitl [R3]; · iexact R3
      isplitl [R4]; · iexact R4
      isplitl [R5]; · iexact R5
      iexact HS)

/-- The class's region invariant with the accumulator as a memref owned at some contents, beside the buffers the
    region never touches and the generator register: what the body obligation hands a run and takes back. -/
theorem PhiA1_eq (c : Dev nD) :
    (Pipeline.ΦA spec1 c : sProp 𝕄)
      = iprop(iprop(Others1 c ∗ (∃ d, owns (c : Thread nD τ) scM1_0 fullShare d)) ∗ (∃ r, prngReg c r)) := by
  unfold Pipeline.ΦA Others1; rw [scopedRest1_eq]; simp only [scM1_0, owns_whole]
  exact sep_group6 _ _ _ _ _ _ _ _

end Cert.Kernel.Down

end
-- ==== Proof.KDownRunA.lean ====
/- Region 1, the points where f = 0 (the first conditional taken, the second not): the whole body run over its memory
   operations. The accumulator comes in at anything, is stored whole with zeros and then with the first product added;
   the output window's buffer is not touched and is handed back as found. The pieces the accumulator ends with are the
   witness the run finds. -/
import proofs.«176752_j57312043598493_1_alg».proof.Proof.KDownShared

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the output window's buffer (nothing: no pieces) and in the accumulator (its pieces,
    last first) where f = 0, with the proof that on whole memrefs — the four inputs' at their contents, the output's at
    contents `xi4` handed back untouched, the accumulator's at anything — the body runs to the continuation holding the
    inputs' and the output's as they were and the accumulator with its pieces written. -/
noncomputable def kernelRun1_A (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_down_kernel i arg2 harg2 arg3 harg3 arg4 harg4 arg5 harg5 arg6 harg6 arg7 harg7) K } := by
  refine ⟨[], ?_, fun xi4 E K => ?run⟩
  case run =>
    simp only [cc1__ffn_down_kernel_eq_skeleton]; unfold cc1__ffn_down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Down

end
-- ==== Proof.KDownRunB.lean ====
/- Region 1, the points where 0 < f < 15 (neither conditional taken): the whole body run over its memory operations. The
   accumulator comes in at what the point before left, and is stored whole with the product added; the output window's
   buffer is not touched and is handed back as found. -/
import proofs.«176752_j57312043598493_1_alg».proof.Proof.KDownRunA

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the output window's buffer (nothing: no pieces) and in the accumulator (its pieces)
    where 0 < f < 15, with the proof that on whole memrefs — the four inputs' at their contents, the output's at contents
    `xi4` handed back untouched, the accumulator's at `xs0` — the body runs to the continuation holding the inputs' and the
    output's as they were and the accumulator with its pieces written. -/
noncomputable def kernelRun1_B (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_down_kernel i arg2 harg2 arg3 harg3 arg4 harg4 arg5 harg5 arg6 harg6 arg7 harg7) K } := by
  refine ⟨[], ?_, fun xi4 E K => ?run⟩
  case run =>
    simp only [cc1__ffn_down_kernel_eq_skeleton]; unfold cc1__ffn_down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Down

end
-- ==== Proof.KDownRunC.lean ====
/- Region 1, the points where f = 15 (the first conditional not taken, the second taken): the whole body run over its
   memory operations. The accumulator comes in at what the point before left and is stored whole with the last product
   added; then the output window's buffer, at anything, is stored whole with x + acc · mask. -/
import proofs.«176752_j57312043598493_1_alg».proof.Proof.KDownRunB

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- What the body's stores leave in the output window's buffer and in the accumulator (pieces, last first) where f = 15,
    with the proof that on whole memrefs — the four inputs' at their contents, the output's at anything, the
    accumulator's at `xs0` — the body runs to the continuation holding the inputs' as they were and the output and the
    accumulator each with its pieces written. -/
noncomputable def kernelRun1_C (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_down_kernel i arg2 harg2 arg3 harg3 arg4 harg4 arg5 harg5 arg6 harg6 arg7 harg7) K } := by
  refine ⟨?_, ?_, fun E K => ?run⟩
  case run =>
    simp only [cc1__ffn_down_kernel_eq_skeleton]; unfold cc1__ffn_down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Down

end
-- ==== Proof.KDown.lean ====
/- Region 1 of the feed-forward block (the down-projection): the frame half, at the buffer contents `V` the region is
   entered with. From the three cases' runs this file states what the output window's buffer and the carried accumulator
   hold after the body at each position of the 16 x 16 grid (a recursion along the positions: where f = 0 the accumulator
   starts afresh, elsewhere it continues from the position before), gives the pipeline's proof data with the invariant
   that names the accumulator's contents between points, and proves the body obligation point by point by cases on f. -/
import proofs.«176752_j57312043598493_1_alg».proof.Proof.KDownRunC

set_option maxRecDepth 16384

noncomputable section

namespace Cert.Kernel.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where f = 0 the body stores nothing into the output window (idle there and not written back): no pieces, a
    placeholder nothing consults. -/
def out1_A_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) : Vec F S512x2048 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The accumulator's pieces where f = 0 cover it (each is the whole block). -/
theorem scover1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) (y : S512x2048.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x2048.size (by sl_kernel_rfl) y

/-- What the body leaves in the accumulator where f = 0: its pieces read back. -/
def sout1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) : Vec F S512x2048 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Where 0 < f < 15 the body stores nothing into the output window either: a placeholder nothing consults. -/
def out1_B_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The accumulator's pieces where 0 < f < 15 cover it (each is the whole block). -/
theorem scover1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) (y : S512x2048.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S512x2048.size (by sl_kernel_rfl) y

/-- What the body leaves in the accumulator where 0 < f < 15: its pieces read back. -/
def sout1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Where f = 15 the output window's pieces cover its block (one store of the whole block). -/
theorem cover1_C_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) (y : S512x2048.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x2048.size (by sl_kernel_rfl) y

/-- What the body leaves in the output window's buffer where f = 15: its pieces read back. -/
def out1_C_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- The accumulator's pieces where f = 15 cover it (each is the whole block). -/
theorem scover1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) (y : S512x2048.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x2048.size (by sl_kernel_rfl) y

/-- What the body leaves in the accumulator where f = 15: its pieces read back. -/
def sout1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the buffers hold after each point -/

/-- What the output window's staging buffer (first component) and the carried accumulator (second component) hold after
    the body at position `n`: the case f selects there, run at the point's memrefs and input blocks, the accumulator
    where f ≠ 0 continuing from what position `n - 1` left. No position has f = 0 and f = 15 at once. -/
def outsAt1 (c : Dev nD) : (n : ℕ) → n < cfg1.N → Vec F S512x2048 .f32 × Vec F S512x2048 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point with f = 0: that case's contents. -/
theorem outsAt1_A (c : Dev nD) (t : Fin cfg1.N) (h0 : t.val % 16 = 0) (h1 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with 0 < f < 15: that case's contents, over what the point before left. -/
theorem outsAt1_B (c : Dev nD) (t : Fin cfg1.N) (h0 : ¬t.val % 16 = 0) (h1 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with f = 15: that case's contents, over what the point before left. -/
theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this region at anything); afterwards the buffers the region never touches at anything, the
    accumulator at what the point before left in it, and the generator register at some state. -/
def PhiS1 (c : Dev nD) : (n : ℕ) → n ≤ cfg1.N → sProp 𝕄
  | 0, _ => Pipeline.ΦA spec1 c
  | n + 1, hn => iprop(iprop(Others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(Others1 c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(Others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; f says which case the point is in; the invariant hands
    the run the accumulator (at anything before the first point, at what the point before left afterwards) and takes it
    back at this point's contents, the buffers the region never touches and the generator register passing through;
    where the output window is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The pipeline's body obligation for the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- After the last point the invariant gives it back. -/
theorem hout1 (c : Dev nD) : (dat1 V c).Φ (Fin.last cfg1.N) ⊢ Pipeline.ΦA spec1 c :=
  Phi_out V c _ (by rw [Fin.val_last]; have : cfg1.N = 256 := N_1; omega)

end Cert.Kernel.Down

end
-- ==== Proof.KFrame.lean ====
/- The run of the feed-forward block's @main over its four segments: the host operations before the kernels, the
   up-projection region, the down-projection region, and the host reshape after them. The buffers' contents at each
   segment boundary are a fold from the launch memory; the two regions are adjacent, so the first region's exit contents
   are the second's entry contents. From the run, every argument array ends holding what it held at launch. -/
import proofs.«176752_j57312043598493_1_alg».proof.Proof.KUp
import proofs.«176752_j57312043598493_1_alg».proof.Proof.KDown
import proofs.«176752_j57312043598493_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch: the up-projection region's entry contents. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the up-projection region's exit, which is the down-projection region's entry: its arrays at what the pipeline
    leaves (the inputs as entered, the output's write-backs folded), every other buffer as entered. -/
def W2 (c : Dev nD) : Valuation τ sig (Elt F) :=
  Pipeline.withArrays spec0 c (W1 m c) fun w => (Up.dat0 (V1 m) c).arrAt w cfg0.N
theorem W2_arr (c : Dev nD) (w : Fin cfg0.W) :
    W2 m c (Proc.devRef .tc (Pipeline.arrRef spec0 w)) = (Up.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
/-- At the first region's exit each of its arrays holds what the pipeline leaves, and every other buffer what it held
    at entry. -/
theorem hF0 (c : Dev nD) (w : Fin cfg0.W) : (Up.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the down-projection region's exit: its arrays at what the pipeline leaves, every other buffer as entered. -/
def W3 (c : Dev nD) : Valuation τ sig (Elt F) :=
  Pipeline.withArrays spec1 c (W2 m c) fun w => (Down.dat1 (V2 m) c).arrAt w cfg1.N
theorem W3_arr (c : Dev nD) (w : Fin cfg1.W) :
    W3 m c (Proc.devRef .tc (Pipeline.arrRef spec1 w)) = (Down.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (Down.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ### The arguments end as launched: no host operation writes one, and none is an array of either region, so the
    fold at an argument's buffer walks back to the launch memory -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Up.dat0 (V1 m) c
  | ⟨1, _⟩ => fun c => Down.dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The up-projection region over the thread state: entered from every unscoped buffer at `W1`, left at `W2`. Its arrays
    split out of the unscoped buffers and put back at the exit contents; the generator register into the invariant and
    out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Up.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region over the thread state: entered from every unscoped buffer at `W2`, left at `W3`. Its
    invariant carries the accumulator, so it is reached from, and gives back, the scoped rest and the generator register
    through the region's own entry and exit entailments. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Down.dat1 (V2 m) c).Φ 0 from rfl]
    refine .trans ?_ (Down.hin1 (V2 m) c)
    unfold Pipeline.ΦA
    iintro ⟨Hp, -, Hr⟩
    isplitl [Hr]; · iexact Hr
    iexact Hp
  hout c := by
    rw [Pipeline.ownSems0_none, show (pdats m 1 c).Φ (Fin.last _) = (Down.dat1 (V2 m) c).Φ (Fin.last cfg1.N) from rfl]
    refine (Down.hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- The run: from any memory with zero counters, every weakly fair execution of @main on the TensorCores terminates,
    nothing faulting, and every final state has every unscoped buffer at the last boundary's contents. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c b hb)

/-- The frame: every weakly fair execution of @main terminates, nothing faulting, and every final state has the four
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.Kernel.Fr

end
-- ==== Proof.KiUp.lean ====
/- Region 0 of the feed-forward block (the up-projection): at every grid point the body reads the x block and the
   w_fc block from their staging buffers and leaves relu(rmsnorm(x)·w_fcᵀ)² in the output window's buffer. This file
   states what each window's buffer holds before and after the body at a point, proves the body's triple over its
   memory operations, and derives the pipeline's body obligation for the region. -/
import proofs.«176752_j57312043598493_1_alg».proof.Proof.Gen.KernelIdeal.Launch
import proofs.«176752_j57312043598493_1_alg».proof.Proof.Gen.KernelIdeal.Skeleton
import proofs.«176752_j57312043598493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x2048 := Rect.unit (s := S512x2048) ![0, 0] S512x2048.size inb_S512x2048_S512x2048_0_0
abbrev r0_1 : Rect S1024x2048 := Rect.unit (s := S1024x2048) ![0, 0] S1024x2048.size inb_S1024x2048_S1024x2048_0_0
abbrev r0_2 : Rect S512x1024 := Rect.unit (s := S512x1024) ![0, 0] S512x1024.size inb_S512x1024_S512x1024_0_0

/-- What the body leaves in the output window's buffer, from the two input blocks. -/
def out0_2 (x0 : Vec F S512x2048 .f32) (x1 : Vec F S1024x2048 .bf16) : Vec F S512x1024 .bf16 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current staging buffer holds its block at every point, fetched there or not (it is fetched only
    where the second grid coordinate is 0, and between fetches its block index does not move), for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's single store is the whole output buffer, so it covers it. -/
theorem cover0_2 (p0 : Vec F S512x1024 .bf16) (y : S512x1024.Idx) :
    ∃ pc ∈ ([⟨r0_2, p0⟩] : List (View.Piece (Elt F) S512x1024 .bf16)), y ∈ pc.1.set :=
  View.cover_of_tiled [⟨r0_2, p0⟩] S512x1024.size (by rfl) y

set_option maxHeartbeats 1000000 in
/-- The body on whole staging memrefs, the inputs' at read contents `x0`, `x1` and the output's at anything, runs to
    the continuation holding the inputs' as they were and the output's at `out0_2` of the inputs'. The output buffer is
    also read once before the store (the value is not used), which is why it is owned at some contents. -/
theorem sound_kernel0 (c : Dev nD) (E : Set ℕ) (i : grid0.Coords)
    (arg2 : Memref sig .tc .vmem S512x2048 .f32) (harg2 : arg2.IsWhole)
    (arg3 : Memref sig .tc .vmem S1024x2048 .bf16) (harg3 : arg3.IsWhole)
    (arg4 : Memref sig .tc .vmem S512x1024 .bf16) (harg4 : arg4.IsWhole)
    (x0 : Vec F S512x2048 .f32) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__ffn_up_kernel i arg2 harg2 arg3 harg3 arg4 harg4) K := by
  simp only [cc0__ffn_up_kernel_eq_skeleton]; unfold cc0__ffn_up_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Up

end
-- ==== Proof.KiDownShared.lean ====
/- Region 1 of the feed-forward block (the down-projection), the part its three cases share. The grid is 16 x 16; the
   second coordinate f runs over the blocks of the hidden axis. A scratch accumulator [512, 2048] is carried along f:
   zeroed where f = 0, increased by h_blk · w_proj_blkᵀ at every point, and where f = 15 the output block x + acc · mask
   is stored from it. This file states each input window's block at a point, the two conditions the body branches on in
   closed form over the grid, where the output window is idle, and the region invariant with the accumulator owned as
   a memref. -/
import proofs.«176752_j57312043598493_1_alg».proof.Proof.Gen.KernelIdeal.Launch
import proofs.«176752_j57312043598493_1_alg».proof.Proof.Gen.KernelIdeal.Skeleton
import proofs.«176752_j57312043598493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the h block, fetched at every point): its current staging buffer holds its block at every point,
    for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the w_proj block, fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the x block): it is fetched only where f = 0, and between fetches its block index does
    not move, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for input window 3 (the mask block), fetched only where f = 0. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (f = 0: the accumulator is zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (f = 15: the output block is stored), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where f = 0 the output window is idle: the body stores nothing into it, -/
theorem idleAt1_4_A : ∀ t : Fin cfg1.N, cond1_0 (grid1.coords t) → ¬cond1_1 (grid1.coords t) → cfg1.idle 4 (grid1.coords t) = true := by decide +kernel
/-- and the pipeline does not write its block back. -/
theorem noFlush1_4_A : ∀ t : Fin cfg1.N, cond1_0 (grid1.coords t) → ¬cond1_1 (grid1.coords t) → (cfg1.win 4).flush t = false := by decide +kernel
/-- Where 0 < f < 15 the same: idle, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- Where f = 15 the output window is live: the body stores its block. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S512x2048 .f32 := (Memref.whole cc1_stg4_0 : Memref sig .tc .vmem S512x2048 .f32).view
/-- Each window's current staging memref at point `t`, spelled as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S512x2048 .f32 := Memref.whole cc1_scratch0
/-- The accumulator as a view: what it holds is stated through it. -/
abbrev VS1_0 : View sig .tc .vmem S512x2048 .f32 := scM1_0.view

/-! ## The region invariant -/

/-- The core's scoped buffers this region never touches (the six staging buffers of the up-projection's pipeline), each
    whole at some contents. -/
def Others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Separating conjunction re-associated: six conjuncts and a seventh beside an eighth, the six grouped. -/
theorem sep_group6 (A0 A1 A2 A3 A4 A5 S G : sProp 𝕄) :
    iprop((A0 ∗ A1 ∗ A2 ∗ A3 ∗ A4 ∗ A5 ∗ S) ∗ G) = iprop(((A0 ∗ A1 ∗ A2 ∗ A3 ∗ A4 ∗ A5) ∗ S) ∗ G) :=
  BI.Entails.antisymm
    (show iprop((A0 ∗ A1 ∗ A2 ∗ A3 ∗ A4 ∗ A5 ∗ S) ∗ G) ⊢ iprop(((A0 ∗ A1 ∗ A2 ∗ A3 ∗ A4 ∗ A5) ∗ S) ∗ G) from by
      iintro ⟨⟨R0, R1, R2, R3, R4, R5, HS⟩, Hg⟩
      isplitr [Hg]
      swap; · iexact Hg
      isplitr [HS]
      swap; · iexact HS
      isplitl [R0]; · iexact R0
      isplitl [R1]; · iexact R1
      isplitl [R2]; · iexact R2
      isplitl [R3]; · iexact R3
      isplitl [R4]; · iexact R4
      iexact R5)
    (show iprop(((A0 ∗ A1 ∗ A2 ∗ A3 ∗ A4 ∗ A5) ∗ S) ∗ G) ⊢ iprop((A0 ∗ A1 ∗ A2 ∗ A3 ∗ A4 ∗ A5 ∗ S) ∗ G) from by
      iintro ⟨⟨⟨R0, R1, R2, R3, R4, R5⟩, HS⟩, Hg⟩
      isplitr [Hg]
      swap; · iexact Hg
      isplitl [R0]; · iexact R0
      isplitl [R1]; · iexact R1
      isplitl [R2]; · iexact R2
      isplitl [R3]; · iexact R3
      isplitl [R4]; · iexact R4
      isplitl [R5]; · iexact R5
      iexact HS)

/-- The class's region invariant with the accumulator as a memref owned at some contents, beside the buffers the
    region never touches and the generator register: what the body obligation hands a run and takes back. -/
theorem PhiA1_eq (c : Dev nD) :
    (Pipeline.ΦA spec1 c : sProp 𝕄)
      = iprop(iprop(Others1 c ∗ (∃ d, owns (c : Thread nD τ) scM1_0 fullShare d)) ∗ (∃ r, prngReg c r)) := by
  unfold Pipeline.ΦA Others1; rw [scopedRest1_eq]; simp only [scM1_0, owns_whole]
  exact sep_group6 _ _ _ _ _ _ _ _

end Cert.KernelIdeal.Down

end
-- ==== Proof.KiDownRunA.lean ====
/- Region 1, the points where f = 0 (the first conditional taken, the second not): the whole body run over its memory
   operations. The accumulator comes in at anything, is stored whole with zeros and then with the first product added;
   the output window's buffer is not touched and is handed back as found. The pieces the accumulator ends with are the
   witness the run finds. -/
import proofs.«176752_j57312043598493_1_alg».proof.Proof.KiDownShared

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the output window's buffer (nothing: no pieces) and in the accumulator (its pieces,
    last first) where f = 0, with the proof that on whole memrefs — the four inputs' at their contents, the output's at
    contents `xi4` handed back untouched, the accumulator's at anything — the body runs to the continuation holding the
    inputs' and the output's as they were and the accumulator with its pieces written. -/
noncomputable def kernelRun1_A (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_down_kernel i arg2 harg2 arg3 harg3 arg4 harg4 arg5 harg5 arg6 harg6 arg7 harg7) K } := by
  refine ⟨[], ?_, fun xi4 E K => ?run⟩
  case run =>
    simp only [cc1__ffn_down_kernel_eq_skeleton]; unfold cc1__ffn_down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Down

end
-- ==== Proof.KiDownRunB.lean ====
/- Region 1, the points where 0 < f < 15 (neither conditional taken): the whole body run over its memory operations. The
   accumulator comes in at what the point before left, and is stored whole with the product added; the output window's
   buffer is not touched and is handed back as found. -/
import proofs.«176752_j57312043598493_1_alg».proof.Proof.KiDownRunA

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the output window's buffer (nothing: no pieces) and in the accumulator (its pieces)
    where 0 < f < 15, with the proof that on whole memrefs — the four inputs' at their contents, the output's at contents
    `xi4` handed back untouched, the accumulator's at `xs0` — the body runs to the continuation holding the inputs' and the
    output's as they were and the accumulator with its pieces written. -/
noncomputable def kernelRun1_B (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) :
    Σ' (L4 : List (View.Piece (Elt F) S512x2048 .f32)), { LS0 : List (View.Piece (Elt F) S512x2048 .f32) //
      ∀ (xi4 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_down_kernel i arg2 harg2 arg3 harg3 arg4 harg4 arg5 harg5 arg6 harg6 arg7 harg7) K } := by
  refine ⟨[], ?_, fun xi4 E K => ?run⟩
  case run =>
    simp only [cc1__ffn_down_kernel_eq_skeleton]; unfold cc1__ffn_down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Down

end
-- ==== Proof.KiDownRunC.lean ====
/- Region 1, the points where f = 15 (the first conditional not taken, the second taken): the whole body run over its
   memory operations. The accumulator comes in at what the point before left and is stored whole with the last product
   added; then the output window's buffer, at anything, is stored whole with x + acc · mask. -/
import proofs.«176752_j57312043598493_1_alg».proof.Proof.KiDownRunB

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave in the output window's buffer and in the accumulator (pieces, last first) where f = 15,
    with the proof that on whole memrefs — the four inputs' at their contents, the output's at anything, the
    accumulator's at `xs0` — the body runs to the continuation holding the inputs' as they were and the output and the
    accumulator each with its pieces written. -/
noncomputable def kernelRun1_C (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) :
    Σ' (L4 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__ffn_down_kernel i arg2 harg2 arg3 harg3 arg4 harg4 arg5 harg5 arg6 harg6 arg7 harg7) K } := by
  refine ⟨?_, ?_, fun E K => ?run⟩
  case run =>
    simp only [cc1__ffn_down_kernel_eq_skeleton]; unfold cc1__ffn_down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Down

end
-- ==== Proof.KiDown.lean ====
/- Region 1 of the feed-forward block (the down-projection): the frame half, at the buffer contents `V` the region is
   entered with. From the three cases' runs this file states what the output window's buffer and the carried accumulator
   hold after the body at each position of the 16 x 16 grid (a recursion along the positions: where f = 0 the accumulator
   starts afresh, elsewhere it continues from the position before), gives the pipeline's proof data with the invariant
   that names the accumulator's contents between points, and proves the body obligation point by point by cases on f. -/
import proofs.«176752_j57312043598493_1_alg».proof.Proof.KiDownRunC

set_option maxRecDepth 16384

noncomputable section

namespace Cert.KernelIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where f = 0 the body stores nothing into the output window (idle there and not written back): no pieces, a
    placeholder nothing consults. -/
def out1_A_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) : Vec F S512x2048 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- The accumulator's pieces where f = 0 cover it (each is the whole block). -/
theorem scover1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) (y : S512x2048.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x2048.size (by sl_kernel_rfl) y

/-- What the body leaves in the accumulator where f = 0: its pieces read back. -/
def sout1_A_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x512 .bf16) (x1 : Vec F S2048x512 .bf16) (x2 : Vec F S512x2048 .f32) (x3 : Vec F S512x1 .f32) : Vec F S512x2048 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Where 0 < f < 15 the body stores nothing into the output window either: a placeholder nothing consults. -/
def out1_B_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The accumulator's pieces where 0 < f < 15 cover it (each is the whole block). -/
theorem scover1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) (y : S512x2048.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S512x2048.size (by sl_kernel_rfl) y

/-- What the body leaves in the accumulator where 0 < f < 15: its pieces read back. -/
def sout1_B_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Where f = 15 the output window's pieces cover its block (one store of the whole block). -/
theorem cover1_C_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) (y : S512x2048.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x2048.size (by sl_kernel_rfl) y

/-- What the body leaves in the output window's buffer where f = 15: its pieces read back. -/
def out1_C_4 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- The accumulator's pieces where f = 15 cover it (each is the whole block). -/
theorem scover1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) (y : S512x2048.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x2048.size (by sl_kernel_rfl) y

/-- What the body leaves in the accumulator where f = 15: its pieces read back. -/
def sout1_C_0 (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x512 .bf16) (x1 : Vec F S2048x512 .bf16) (x2 : Vec F S512x2048 .f32) (x3 : Vec F S512x1 .f32) (xs0 : Vec F S512x2048 .f32) : Vec F S512x2048 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the buffers hold after each point -/

/-- What the output window's staging buffer (first component) and the carried accumulator (second component) hold after
    the body at position `n`: the case f selects there, run at the point's memrefs and input blocks, the accumulator
    where f ≠ 0 continuing from what position `n - 1` left. No position has f = 0 and f = 15 at once. -/
def outsAt1 (c : Dev nD) : (n : ℕ) → n < cfg1.N → Vec F S512x2048 .f32 × Vec F S512x2048 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point with f = 0: that case's contents. -/
theorem outsAt1_A (c : Dev nD) (t : Fin cfg1.N) (h0 : t.val % 16 = 0) (h1 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with 0 < f < 15: that case's contents, over what the point before left. -/
theorem outsAt1_B (c : Dev nD) (t : Fin cfg1.N) (h0 : ¬t.val % 16 = 0) (h1 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with f = 15: that case's contents, over what the point before left. -/
theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this region at anything); afterwards the buffers the region never touches at anything, the
    accumulator at what the point before left in it, and the generator register at some state. -/
def PhiS1 (c : Dev nD) : (n : ℕ) → n ≤ cfg1.N → sProp 𝕄
  | 0, _ => Pipeline.ΦA spec1 c
  | n + 1, hn => iprop(iprop(Others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(Others1 c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(Others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; f says which case the point is in; the invariant hands
    the run the accumulator (at anything before the first point, at what the point before left afterwards) and takes it
    back at this point's contents, the buffers the region never touches and the generator register passing through;
    where the output window is idle its buffer is handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The pipeline's body obligation for the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- After the last point the invariant gives it back. -/
theorem hout1 (c : Dev nD) : (dat1 V c).Φ (Fin.last cfg1.N) ⊢ Pipeline.ΦA spec1 c :=
  Phi_out V c _ (by rw [Fin.val_last]; have : cfg1.N = 256 := N_1; omega)

end Cert.KernelIdeal.Down

end
-- ==== Proof.KiFrame.lean ====
/- The run of the feed-forward block's @main over its four segments: the host operations before the kernels, the
   up-projection region, the down-projection region, and the host reshape after them. The buffers' contents at each
   segment boundary are a fold from the launch memory; the two regions are adjacent, so the first region's exit contents
   are the second's entry contents. From the run, every argument array ends holding what it held at launch. -/
import proofs.«176752_j57312043598493_1_alg».proof.Proof.KiUp
import proofs.«176752_j57312043598493_1_alg».proof.Proof.KiDown
import proofs.«176752_j57312043598493_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch: the up-projection region's entry contents. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the up-projection region's exit, which is the down-projection region's entry: its arrays at what the pipeline
    leaves (the inputs as entered, the output's write-backs folded), every other buffer as entered. -/
def W2 (c : Dev nD) : Valuation τ sig (Elt F) :=
  Pipeline.withArrays spec0 c (W1 m c) fun w => (Up.dat0 (V1 m) c).arrAt w cfg0.N
theorem W2_arr (c : Dev nD) (w : Fin cfg0.W) :
    W2 m c (Proc.devRef .tc (Pipeline.arrRef spec0 w)) = (Up.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
/-- At the first region's exit each of its arrays holds what the pipeline leaves, and every other buffer what it held
    at entry. -/
theorem hF0 (c : Dev nD) (w : Fin cfg0.W) : (Up.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the down-projection region's exit: its arrays at what the pipeline leaves, every other buffer as entered. -/
def W3 (c : Dev nD) : Valuation τ sig (Elt F) :=
  Pipeline.withArrays spec1 c (W2 m c) fun w => (Down.dat1 (V2 m) c).arrAt w cfg1.N
theorem W3_arr (c : Dev nD) (w : Fin cfg1.W) :
    W3 m c (Proc.devRef .tc (Pipeline.arrRef spec1 w)) = (Down.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (Down.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the end. -/
abbrev W4 : Dev nD → Valuation τ sig (Elt F) := fun c => StableHlo.after hostOps2 (W3 m c)

/-! ### The arguments end as launched: no host operation writes one, and none is an array of either region, so the
    fold at an argument's buffer walks back to the launch memory -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Up.dat0 (V1 m) c
  | ⟨1, _⟩ => fun c => Down.dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The up-projection region over the thread state: entered from every unscoped buffer at `W1`, left at `W2`. Its arrays
    split out of the unscoped buffers and put back at the exit contents; the generator register into the invariant and
    out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Up.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down-projection region over the thread state: entered from every unscoped buffer at `W2`, left at `W3`. Its
    invariant carries the accumulator, so it is reached from, and gives back, the scoped rest and the generator register
    through the region's own entry and exit entailments. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Down.dat1 (V2 m) c).Φ 0 from rfl]
    refine .trans ?_ (Down.hin1 (V2 m) c)
    unfold Pipeline.ΦA
    iintro ⟨Hp, -, Hr⟩
    isplitl [Hr]; · iexact Hr
    iexact Hp
  hout c := by
    rw [Pipeline.ownSems0_none, show (pdats m 1 c).Φ (Fin.last _) = (Down.dat1 (V2 m) c).Φ (Fin.last cfg1.N) from rfl]
    refine (Down.hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- The run: from any memory with zero counters, every weakly fair execution of @main on the TensorCores terminates,
    nothing faulting, and every final state has every unscoped buffer at the last boundary's contents. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c b hb)

/-- The frame: every weakly fair execution of @main terminates, nothing faulting, and every final state has the four
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.KernelIdeal.Fr

end
-- ==== Proof.Spec.lean ====
/-
  The function both programs compute, one row of tokens at a time, on the extended reals.

  A row `xr` of 2048 features is scaled by the reciprocal root of its mean square plus `ε = 2⁻²³`; the scaled row is
  contracted against each of the 8192 rows of the up-projection, clipped below at zero and squared; that hidden row is
  contracted against each of the 2048 rows of the down-projection; the result is kept where the row's router logit
  `∑ₖ xr k · wr k` is positive and dropped (multiplied by zero) elsewhere, and added to the row itself.
-/
import Idealize.ShloMosaic.PureOps.Ideal
import Idealize.ShloMosaic.Lib.ValueIdx

noncomputable section

open scoped BigOperators

namespace Cert.FfnSpec

open Idealize.ShloMosaic

/-- The word `+0.0`. -/
abbrev zero32 : EReal := Ideal.ofBits .f32 0x00000000#32
/-- The word `2048.0`, the row length the mean divides by. -/
abbrev n2048 : EReal := Ideal.ofBits .f32 0x45000000#32
/-- The word `2⁻²³` added under the root. -/
abbrev eps : EReal := Ideal.ofBits .f32 0x34000000#32

/-- The reciprocal root mean square of a row. -/
def rrms (xr : Fin 2048 → EReal) : EReal :=
  Ideal.rsqrt (Ideal.div (∑ k : Fin 2048, xr k * xr k) n2048 + eps)

/-- One hidden unit: the normalised row against row `f` of the up-projection, clipped at zero, squared. -/
def hid (xr : Fin 2048 → EReal) (wfc : Fin 8192 → Fin 2048 → EReal) (f : Fin 8192) : EReal :=
  max (∑ k : Fin 2048, (xr k * rrms xr) * wfc f k) zero32 * max (∑ k : Fin 2048, (xr k * rrms xr) * wfc f k) zero32

/-- One output feature of the feed-forward block: the hidden row against row `c` of the down-projection. -/
def mlp (xr : Fin 2048 → EReal) (wfc : Fin 8192 → Fin 2048 → EReal) (wproj : Fin 2048 → Fin 8192 → EReal) (c : Fin 2048) : EReal :=
  ∑ f : Fin 8192, hid xr wfc f * wproj c f

/-- The router's logit of a row. -/
def logit (xr : Fin 2048 → EReal) (wr : Fin 2048 → EReal) : EReal := ∑ k : Fin 2048, xr k * wr k

/-- The gate: one where the logit is positive, zero elsewhere (the comparison's bit read as a number). -/
def gate (l : EReal) : EReal := (((Ideal.cmp .ogt l zero32).toNat : ℝ) : EReal)

/-- One output feature of one row: the row plus its gated feed-forward image. -/
def outRow (xr : Fin 2048 → EReal) (wfc : Fin 8192 → Fin 2048 → EReal) (wproj : Fin 2048 → Fin 8192 → EReal)
    (wr : Fin 2048 → EReal) (c : Fin 2048) : EReal :=
  xr c + mlp xr wfc wproj c * gate (logit xr wr)

/-- The whole result array [4, 2048, 2048] from the four argument arrays: entry (b, t, c) is feature `c` of the
    image of row (b, t) of `x`; the up-projection's rows are `wfc`'s, the down-projection's `wproj`'s, the router's the one row of `wr`. -/
def outArr (x : (⟨3, ![4, 2048, 2048]⟩ : Shape).Idx → EReal) (wfc : (⟨2, ![8192, 2048]⟩ : Shape).Idx → EReal)
    (wproj : (⟨2, ![2048, 8192]⟩ : Shape).Idx → EReal) (wr : (⟨2, ![1, 2048]⟩ : Shape).Idx → EReal) :
    (⟨3, ![4, 2048, 2048]⟩ : Shape).Idx → EReal :=
  fun i => outRow (fun k : Fin 2048 => x (ValueIdx.ix3 (i 0 : Fin 4) (i 1 : Fin 2048) k))
    (fun (f : Fin 8192) (k : Fin 2048) => wfc (ValueIdx.ix2 f k))
    (fun (c : Fin 2048) (f : Fin 8192) => wproj (ValueIdx.ix2 c f))
    (fun k : Fin 2048 => wr (ValueIdx.ix2 (0 : Fin 1) k)) (i 2 : Fin 2048)

end Cert.FfnSpec

end
-- ==== Proof.KiValDefs.lean ====
/-
  The two intermediate arrays of the feed-forward block on flattened tokens, entry by entry on the extended reals: the
  hidden activations [8192, 8192] (what the up-projection region leaves) and the block's output [8192, 2048] (what the
  down-projection region leaves) as functions of the arrays each region reads.
-/
import proofs.«176752_j57312043598493_1_alg».proof.Proof.Spec
import proofs.«176752_j57312043598493_1_alg».proof.KernelIdeal
import Idealize.ShloMosaic.Lib.ValueIdx

noncomputable section

open Idealize.ShloMosaic
open Cert.KernelIdeal
open scoped BigOperators

namespace Cert.KernelIdeal.UpVal

/-- The hidden activations from the flattened tokens and the up-projection: entry (r, f) is hidden unit f of row r. -/
def hidArr (X : S8192x2048.Idx → EReal) (Wfc : S8192x2048.Idx → EReal) : S8192x8192.Idx → EReal :=
  fun i => Cert.FfnSpec.hid (fun k : Fin 2048 => X (ValueIdx.ix2 (i 0 : Fin 8192) k)) (fun (f : Fin 8192) (k : Fin 2048) => Wfc (ValueIdx.ix2 f k)) (i 1 : Fin 8192)

end Cert.KernelIdeal.UpVal

namespace Cert.KernelIdeal.DownVal

/-- The block's output on flattened tokens: entry (r, c') is the row's own entry plus the contraction of the row's hidden
    activations against row c' of the down-projection, times the row's gate. -/
def outFlat (H : S8192x8192.Idx → EReal) (Wp : S2048x8192.Idx → EReal) (X : S8192x2048.Idx → EReal) (M : S8192x1.Idx → EReal) :
    S8192x2048.Idx → EReal :=
  fun i => X i + (∑ f : Fin 8192, H (ValueIdx.ix2 (i 0 : Fin 8192) f) * Wp (ValueIdx.ix2 (i 1 : Fin 2048) f)) * M (ValueIdx.ix2 (i 0 : Fin 8192) (0 : Fin 1))

end Cert.KernelIdeal.DownVal

end
-- ==== Proof.KiCompose.lean ====
/-
  The feed-forward block on flattened tokens, composed: the tokens [4, 2048, 2048] re-laid as rows [8192, 2048], the
  hidden activations of each row, their contraction against the down-projection gated by the sign of the row's router
  logit, the row added back, and the rows re-laid as [4, 2048, 2048] — entry (b, t, c) of the result is feature c of
  the image of row 2048·b + t, which is the row (b, t) of the tokens.
-/
import proofs.«176752_j57312043598493_1_alg».proof.Proof.KiValDefs
import proofs.«176752_j57312043598493_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open Cert.KernelIdeal
open scoped BigOperators

namespace Cert.KernelIdeal.Val

open Facts₀ Facts

/-- Row 2048·b + t of the flattened tokens. -/
abbrev rowOf (b : Fin 4) (t : Fin 2048) : Fin 8192 := ⟨2048 * b.val + t.val, by have := b.isLt; have := t.isLt; omega⟩

/-- The flattened tokens at (2048·b + t, k) are the tokens at (b, t, k): the same row-major position. -/
theorem flat_apply (x : S4x2048x2048.Idx → EReal) (h : S4x2048x2048.ShapeCasts S8192x2048) (b : Fin 4) (t : Fin 2048) (k : Fin 2048) :
    shapeCast S8192x2048 x h (ix2 (rowOf b t) k) = x (ix3 b t k) :=
  shapeCast_apply x h (ix2 (rowOf b t) k) (ix3 b t k)
    (by rewrite [Shape.rowMajor_val_three, Shape.rowMajor_val_two]
        show (b.val * 2048 + t.val) * 2048 + k.val = (2048 * b.val + t.val) * 2048 + k.val
        omega)

/-- Re-laying rows [8192, 2048] as [4, 2048, 2048]: entry (b, t, c) is entry (2048·b + t, c). -/
theorem unflat_apply (y : S8192x2048.Idx → EReal) (h : S8192x2048.ShapeCasts S4x2048x2048) (b : Fin 4) (t : Fin 2048) (c : Fin 2048) :
    shapeCast S4x2048x2048 y h (ix3 b t c) = y (ix2 (rowOf b t) c) :=
  shapeCast_apply y h (ix3 b t c) (ix2 (rowOf b t) c)
    (by rewrite [Shape.rowMajor_val_three, Shape.rowMajor_val_two]
        show (2048 * b.val + t.val) * 2048 + c.val = (b.val * 2048 + t.val) * 2048 + c.val
        omega)

/-! ## The router's logit: a plain [8192, 2048] × [2048, 1] contraction read at an entry -/

theorem lhs_logit_0 (i : S8192x1.Idx) (q : dot_S8192x2048_S2048x1_S8192x1_1_0_0_1_n_n.contr.Idx) :
    (dot_S8192x2048_S2048x1_S8192x1_1_0_0_1_n_n.lhsIdx i q 0).val = (i 0).val := by
  unfold DotDims.lhsIdx
  rw [dif_neg (show ¬(0 : Fin S8192x2048.rank) ∈ dot_S8192x2048_S2048x1_S8192x1_1_0_0_1_n_n.lhsBatch by decide), dif_pos (show (0 : Fin S8192x2048.rank) ∈ dot_S8192x2048_S2048x1_S8192x1_1_0_0_1_n_n.lhsNonContracting by decide)]
  rfl
theorem lhs_logit_1 (i : S8192x1.Idx) (q : dot_S8192x2048_S2048x1_S8192x1_1_0_0_1_n_n.contr.Idx) :
    (dot_S8192x2048_S2048x1_S8192x1_1_0_0_1_n_n.lhsIdx i q 1).val = (q ⟨0, by decide⟩).val :=
  dot_S8192x2048_S2048x1_S8192x1_1_0_0_1_n_n.lhsIdx_val_of_single rfl i q
theorem rhs_logit_0 (i : S8192x1.Idx) (q : dot_S8192x2048_S2048x1_S8192x1_1_0_0_1_n_n.contr.Idx) :
    (dot_S8192x2048_S2048x1_S8192x1_1_0_0_1_n_n.rhsIdx i q 0).val = (q ⟨0, by decide⟩).val :=
  dot_S8192x2048_S2048x1_S8192x1_1_0_0_1_n_n.rhsIdx_val_of_single rfl i q
theorem rhs_logit_1 (i : S8192x1.Idx) (q : dot_S8192x2048_S2048x1_S8192x1_1_0_0_1_n_n.contr.Idx) :
    (dot_S8192x2048_S2048x1_S8192x1_1_0_0_1_n_n.rhsIdx i q 1).val = (i 1).val := by
  unfold DotDims.rhsIdx
  rw [dif_neg (show ¬(1 : Fin S2048x1.rank) ∈ dot_S8192x2048_S2048x1_S8192x1_1_0_0_1_n_n.rhsBatch by decide), dif_pos (show (1 : Fin S2048x1.rank) ∈ dot_S8192x2048_S2048x1_S8192x1_1_0_0_1_n_n.rhsNonContracting by decide)]
  rfl

/-- The host's contraction of the rows against the router's column, at row r: the sum over the 2048 features. -/
theorem logit_apply (X : FVec Ideal S8192x2048 .f32) (w : FVec Ideal S2048x1 .f32) (r : Fin 8192) :
    Host.dotGeneral (F := Ideal) dot_S8192x2048_S2048x1_S8192x1_1_0_0_1_n_n none X w (ix2 r (0 : Fin 1))
      = ∑ k : Fin 2048, X (ix2 r k) * w (ix2 k (0 : Fin 1)) := by
  simp only [Host.dotGeneral]
  rw [Ideal.dotGeneral_apply, ← Equiv.sum_comp (ValueIdx.contrEquiv1 dot_S8192x2048_S2048x1_S8192x1_1_0_0_1_n_n 2048 rfl rfl).symm]
  refine Finset.sum_congr rfl fun k _ => ?_
  have hk := ValueIdx.contrEquiv1_symm_val dot_S8192x2048_S2048x1_S8192x1_1_0_0_1_n_n 2048 rfl rfl k
  have el : dot_S8192x2048_S2048x1_S8192x1_1_0_0_1_n_n.lhsIdx (ix2 r (0 : Fin 1)) ((ValueIdx.contrEquiv1 dot_S8192x2048_S2048x1_S8192x1_1_0_0_1_n_n 2048 rfl rfl).symm k) = ix2 r k := funext fun a => Fin.ext (by
    match a with
    | ⟨0, _⟩ => exact lhs_logit_0 _ _
    | ⟨1, _⟩ => exact (lhs_logit_1 _ _).trans hk)
  have er : dot_S8192x2048_S2048x1_S8192x1_1_0_0_1_n_n.rhsIdx (ix2 r (0 : Fin 1)) ((ValueIdx.contrEquiv1 dot_S8192x2048_S2048x1_S8192x1_1_0_0_1_n_n 2048 rfl rfl).symm k) = ix2 k (0 : Fin 1) := funext fun a => Fin.ext (by
    match a with
    | ⟨0, _⟩ => exact (rhs_logit_0 _ _).trans hk
    | ⟨1, _⟩ => exact rhs_logit_1 _ _)
  rw [el, er]

/-! ## The composition -/

/-- The block composed over flattened tokens, re-laid, is the row function entry by entry. -/
theorem compose_eq (x : FVec Ideal S4x2048x2048 .f32) (w1 : FVec Ideal S8192x2048 .f32) (w2 : FVec Ideal S2048x8192 .f32) (w3 : FVec Ideal S1x2048 .f32)
    (h1 : S4x2048x2048.ShapeCasts S8192x2048) (h2 : S8192x2048.ShapeCasts S4x2048x2048) (ht : S1x2048.Transposes [1, 0] S2048x1)
    (hb : S_.BroadcastsInDim S8192x1 ![]) (hbf : FTy.bits .bf16 < FTy.bits .f32) :
    shapeCast S4x2048x2048
      (DownVal.outFlat
        (UpVal.hidArr (shapeCast S8192x2048 x h1) (truncf (F := Ideal) .bf16 w1 hbf))
        (truncf (F := Ideal) .bf16 w2 hbf)
        (shapeCast S8192x2048 x h1)
        (uitofp (F := Ideal) .f32 (cmpf .ogt (Host.dotGeneral (F := Ideal) dot_S8192x2048_S2048x1_S8192x1_1_0_0_1_n_n none (shapeCast S8192x2048 x h1) (transpose S2048x1 [1, 0] w3 ht))
          (broadcastInDim S8192x1 ![] hb (constant (F := Ideal) S_ .f32 0x00000000#32))))) h2
      = Cert.FfnSpec.outArr x w1 w2 w3 := by
  funext i
  obtain ⟨b, t, c, rfl⟩ : ∃ (b : Fin 4) (t : Fin 2048) (c : Fin 2048), i = ix3 b t c := ⟨i 0, i 1, i 2, eq_ix3 i⟩
  rw [unflat_apply]
  have hrow : (fun k : Fin 2048 => shapeCast S8192x2048 x h1 (ix2 (rowOf b t) k)) = fun k : Fin 2048 => x (ix3 b t k) :=
    funext fun k => flat_apply x h1 b t k
  show shapeCast S8192x2048 x h1 (ix2 (rowOf b t) c)
      + (∑ f : Fin 8192, Cert.FfnSpec.hid (fun k : Fin 2048 => shapeCast S8192x2048 x h1 (ix2 (rowOf b t) k)) (fun (f : Fin 8192) (k : Fin 2048) => w1 (ix2 f k)) f * w2 (ix2 c f))
        * (((Ideal.cmp .ogt (Host.dotGeneral (F := Ideal) dot_S8192x2048_S2048x1_S8192x1_1_0_0_1_n_n none (shapeCast S8192x2048 x h1) (transpose S2048x1 [1, 0] w3 ht) (ix2 (rowOf b t) (0 : Fin 1))) Cert.FfnSpec.zero32).toNat : ℝ) : EReal)
    = x (ix3 b t c) + (∑ f : Fin 8192, Cert.FfnSpec.hid (fun k : Fin 2048 => x (ix3 b t k)) (fun (f : Fin 8192) (k : Fin 2048) => w1 (ix2 f k)) f * w2 (ix2 c f))
        * (((Ideal.cmp .ogt (∑ k : Fin 2048, x (ix3 b t k) * w3 (ix2 (0 : Fin 1) k)) Cert.FfnSpec.zero32).toNat : ℝ) : EReal)
  rw [logit_apply, flat_apply, hrow]
  simp only [flat_apply]
  simp only [ValueIdx.transpose_ix2_apply w3 ht]

end Cert.KernelIdeal.Val

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.KiUpVal.lean ====
/- Region 0 of the feed-forward block (the up-projection), read on the extended reals: what the hidden activations'
   array [8192, 8192] holds after the region. At grid point (m, f) the body takes rows 512·m … 512·m + 511 of the token
   array X and rows 1024·f … 1024·f + 1023 of the weight array Wfc; it scales every row of the x block by the reciprocal
   root of its mean square plus 2⁻²³, contracts the scaled block against the weight block's rows, clips below at zero and
   squares. Entry (p, q) of that result is therefore hidden unit 1024·f + q of row 512·m + p, a function of row
   512·m + p of X and row 1024·f + q of Wfc only; the 16 × 8 output blocks tile the array, so the array ends holding
   the hidden units entry by entry. The sum over the 2048 lanes, the column of row scales and the contraction are each
   read at an index first; the changes of float format are the identity on the extended reals. -/
import proofs.«176752_j57312043598493_1_alg».proof.Proof.KiValDefs
import proofs.«176752_j57312043598493_1_alg».proof.Proof.KiUp
import proofs.«176752_j57312043598493_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

namespace Cert.KernelIdeal.UpVal

/-! ## The contraction of the body read at an entry

At result entry i and contraction index c the left operand is read at (i 0, c) and the right operand at (c, i 1): a kept
axis reads the result index at its place, the contracted axis the one coordinate of c. One lemma per operand axis. -/

theorem lhs_up_0 (i : S512x1024.Idx) (c : dot_S512x2048_S2048x1024_S512x1024_1_0_0_1_n_n.contr.Idx) :
    (dot_S512x2048_S2048x1024_S512x1024_1_0_0_1_n_n.lhsIdx i c 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_up_1 (i : S512x1024.Idx) (c : dot_S512x2048_S2048x1024_S512x1024_1_0_0_1_n_n.contr.Idx) :
    (dot_S512x2048_S2048x1024_S512x1024_1_0_0_1_n_n.lhsIdx i c 1).val = (c ⟨0, by decide⟩).val :=
  dot_S512x2048_S2048x1024_S512x1024_1_0_0_1_n_n.lhsIdx_val_of_single rfl i c
theorem rhs_up_0 (i : S512x1024.Idx) (c : dot_S512x2048_S2048x1024_S512x1024_1_0_0_1_n_n.contr.Idx) :
    (dot_S512x2048_S2048x1024_S512x1024_1_0_0_1_n_n.rhsIdx i c 0).val = (c ⟨0, by decide⟩).val :=
  dot_S512x2048_S2048x1024_S512x1024_1_0_0_1_n_n.rhsIdx_val_of_single rfl i c
theorem rhs_up_1 (i : S512x1024.Idx) (c : dot_S512x2048_S2048x1024_S512x1024_1_0_0_1_n_n.contr.Idx) :
    (dot_S512x2048_S2048x1024_S512x1024_1_0_0_1_n_n.rhsIdx i c 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The body's matrix product into the zero accumulator, at entry (p, q): the sum over the 2048 lanes of the left
    operand's row p against the right operand's column q. -/
theorem matmul_up_apply (a : FVec Ideal S512x2048 .bf16) (b : FVec Ideal S2048x1024 .bf16) (p : Fin 512) (q : Fin 1024) :
    matmul dot_S512x2048_S2048x1024_S512x1024_1_0_0_1_n_n none a b (constant (F := Ideal) S512x1024 .f32 0x00000000#32) (ix2 p q)
      = ∑ k : Fin 2048, a (ix2 p k) * b (ix2 k q) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 p q) ((ValueIdx.contrEquiv1 dot_S512x2048_S2048x1024_S512x1024_1_0_0_1_n_n 2048 rfl rfl).symm k) = ix2 p k := funext fun x => Fin.ext (by
    match x with
    | ⟨0, _⟩ => exact lhs_up_0 _ _
    | ⟨1, _⟩ => exact (lhs_up_1 _ _).trans hk)
  have er : dot_S512x2048_S2048x1024_S512x1024_1_0_0_1_n_n.rhsIdx (ix2 p q) ((ValueIdx.contrEquiv1 dot_S512x2048_S2048x1024_S512x1024_1_0_0_1_n_n 2048 rfl rfl).symm k) = ix2 k q := funext fun x => Fin.ext (by
    match x with
    | ⟨0, _⟩ => exact (rhs_up_0 _ _).trans hk
    | ⟨1, _⟩ => exact rhs_up_1 _ _)
  rw [el, er]

/-! ## The body's result at an entry -/

/-- The lane sums of the squares of the x block's rows. -/
abbrev sumSq (x0 : Vec Ideal S512x2048 .f32) : FVec Ideal S512 .f32 :=
  multiReduction (F := Ideal) .add [1] S512 (mulf x0 x0) 0x00000000#32 reduces_S512x2048_S512 (.inl rfl) rfl

/-- The reciprocal root mean squares of the rows, spread along the lanes: the lane sums kept as a column, divided by
    the row length, the small constant added, the reciprocal root taken, the column broadcast back over the lanes. -/
abbrev scaleOf (x0 : Vec Ideal S512x2048 .f32) : FVec Ideal S512x2048 .f32 :=
  broadcastTo S512x2048 (rsqrt (addf (divf (shapeCast S512x1 (sumSq x0) shapeCasts_S512_S512x1)
      (broadcast S512x1 (Scalar.ofBits (F := Ideal) .f32 0x45000000#32))) (broadcast S512x1 (Scalar.ofBits (F := Ideal) .f32 0x34000000#32))))
    broadcasts_S512x1_S512x2048

/-- At lane k of row p the spread scale is the reciprocal root mean square of row p. -/
theorem scale_apply (x0 : Vec Ideal S512x2048 .f32) (p : Fin 512) (k : Fin 2048) :
    scaleOf x0 (ix2 p k) = Cert.FfnSpec.rrms (fun k : Fin 2048 => x0 (ix2 p k)) := by
  refine (Cert.LibKeepdims.broadcastTo_a1_ab_apply _ broadcasts_S512x1_S512x2048 p k).trans ?_
  have hs : shapeCast S512x1 (sumSq x0) shapeCasts_S512_S512x1 (ix2 p (0 : Fin 1)) = ∑ k : Fin 2048, x0 (ix2 p k) * x0 (ix2 p k) :=
    (Cert.LibKeepdims.shapeCast_a_a1_apply (sumSq x0) shapeCasts_S512_S512x1 p 0).trans
      (Cert.LibKeepdims.rowSum_apply (mulf x0 x0) 0x00000000#32 reduces_S512x2048_S512 (.inl rfl) rfl p)
  exact congrArg (fun s => Ideal.rsqrt (Ideal.div s Cert.FfnSpec.n2048 + Cert.FfnSpec.eps)) hs

/-- One entry of the body's result: row p of the x block scaled by its reciprocal root mean square, contracted against
    row q of the weight block, clipped below at zero and squared. The changes of float format are the identity here. -/
theorem pay_apply (x0 : Vec Ideal S512x2048 .f32) (x1 : Vec Ideal S1024x2048 .bf16) (p : Fin 512) (q : Fin 1024) :
    k0_pay1 (F := Ideal) x0 x1 (ix2 p q)
      = max (∑ k : Fin 2048, (x0 (ix2 p k) * Cert.FfnSpec.rrms (fun k : Fin 2048 => x0 (ix2 p k))) * x1 (ix2 q k)) Cert.FfnSpec.zero32
        * max (∑ k : Fin 2048, (x0 (ix2 p k) * Cert.FfnSpec.rrms (fun k : Fin 2048 => x0 (ix2 p k))) * x1 (ix2 q k)) Cert.FfnSpec.zero32 := by
  have hS : matmul dot_S512x2048_S2048x1024_S512x1024_1_0_0_1_n_n none
        (truncf .bf16 (mulf x0 (scaleOf x0)) bitsLt_bf16_f32) (transpose S2048x1024 [1, 0] x1 transposes_S1024x2048_p1_0_S2048x1024)
        (constant (F := Ideal) S512x1024 .f32 0x00000000#32) (ix2 p q)
      = ∑ k : Fin 2048, (x0 (ix2 p k) * Cert.FfnSpec.rrms (fun k : Fin 2048 => x0 (ix2 p k))) * x1 (ix2 q k) :=
    (matmul_up_apply _ _ p q).trans (Finset.sum_congr rfl fun k _ =>
      congrArg₂ (· * ·) (congrArg (x0 (ix2 p k) * ·) (scale_apply x0 p k)) (transpose_ix2_apply x1 transposes_S1024x2048_p1_0_S2048x1024 k q))
  unfold k0_pay1
  simp only [shapeCast_self]
  exact congrArg (fun s => max s Cert.FfnSpec.zero32 * max s Cert.FfnSpec.zero32) hS

/-! ## From the blocks to the array -/

/-- One entry of the body's result is the entry of the hidden activations it is written to: when the x block is rows
    512·m … of X and the weight block rows 1024·f … of Wfc, entry (p, q) of the result is hidden unit 1024·f + q of row
    512·m + p. -/
theorem blk_entry (X : S8192x2048.Idx → EReal) (Wfc : S8192x2048.Idx → EReal)
    (x0 : Vec Ideal S512x2048 .f32) (x1 : Vec Ideal S1024x2048 .bf16) (p : Fin 512) (q : Fin 1024) (i : S8192x8192.Idx)
    (h0 : ∀ k : Fin 2048, x0 (ix2 p k) = X (ix2 (i 0 : Fin 8192) k))
    (h1 : ∀ k : Fin 2048, x1 (ix2 q k) = Wfc (ix2 (i 1 : Fin 8192) k)) :
    k0_pay1 (F := Ideal) x0 x1 (ix2 p q) = hidArr X Wfc i := by
  refine (pay_apply x0 x1 p q).trans ?_
  unfold hidArr Cert.FfnSpec.hid
  simp only [h0, h1]

theorem hz : (![0, 0] : Fin 2 → Nat) = fun _ => 0 := funext fun a => by fin_cases a <;> rfl

/-- The block indices over the grid: at point t = 8·m + f the x window is at block row m, the weight window at block row f,
    the output window at block (m, f). -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- What point t writes back is block t of the hidden activations of the two arrays the region reads. -/
theorem flushed_eq (V : (c : Dev nD) → (b : Ref sig .tc) → Buf (Elt Ideal) ((c : Thread nD τ).loc b)) (c : Dev nD) (t : Fin cfg0.N) :
    (Cert.KernelIdeal.Up.dat0 (F := Ideal) V c).flushed 2 t
      = ((cfg0.win 2).blk t).view.read (Elt Ideal) (hidArr (V c main_v0) (V c main_v1)) := by
  show (cfg0.win 2).cut (grid0.coords t) ((Cert.KernelIdeal.Up.dat0 (F := Ideal) V c).after 2 t) = _
  rw [Cert.KernelIdeal.Up.after0_2]
  unfold Cert.KernelIdeal.Up.out0_2
  rw [View.canon_unit_zero hz]
  simp only [View.ld_unit_zero (S := S512x2048) hz, View.ld_unit_zero (S := S1024x2048) hz]
  obtain ⟨e00, e01, e10, e11, e20, e21⟩ := idx_facts t
  funext j
  show k0_pay1 (F := Ideal) (Cert.KernelIdeal.Up.iblk0 V c 0 t) (Cert.KernelIdeal.Up.iblk0 V c 1 t) j
    = hidArr (V c main_v0) (V c main_v1) (((cfg0.win 2).blk t).view.emb j)
  refine (congrArg (k0_pay1 (F := Ideal) (Cert.KernelIdeal.Up.iblk0 V c 0 t) (Cert.KernelIdeal.Up.iblk0 V c 1 t)) (eq_ix2 (n0 := 512) (n1 := 1024) j)).trans ?_
  refine blk_entry (V c main_v0) (V c main_v1) (Cert.KernelIdeal.Up.iblk0 V c 0 t) (Cert.KernelIdeal.Up.iblk0 V c 1 t) (j 0) (j 1)
    (((cfg0.win 2).blk t).view.emb j) (fun k => ?_) (fun k => ?_)
  · show V c main_v0 (((cfg0.win 0).blk t).view.emb (ix2 (j 0) k)) = V c main_v0 (ix2 ((((cfg0.win 2).blk t).view.emb j) 0) k)
    refine congrArg (V c main_v0) (funext fun a => Fin.ext ?_)
    match a with
    | ⟨0, _⟩ => show win0_0.index t (0 : Fin 2) * 512 + 1 * (j 0).val = win0_2.index t (0 : Fin 2) * 512 + 1 * (j 0).val; rw [e00, e20]
    | ⟨1, _⟩ => show win0_0.index t (1 : Fin 2) * 2048 + 1 * k.val = k.val; rw [e01]; omega
  · show V c main_v1 (((cfg0.win 1).blk t).view.emb (ix2 (j 1) k)) = V c main_v1 (ix2 ((((cfg0.win 2).blk t).view.emb j) 1) k)
    refine congrArg (V c main_v1) (funext fun a => Fin.ext ?_)
    match a with
    | ⟨0, _⟩ => show win0_1.index t (0 : Fin 2) * 1024 + 1 * (j 1).val = win0_2.index t (1 : Fin 2) * 1024 + 1 * (j 1).val; rw [e10, e21]
    | ⟨1, _⟩ => show win0_1.index t (1 : Fin 2) * 2048 + 1 * k.val = k.val; rw [e11]; omega

/-- An index of the hidden activations lies in point t's block when each coordinate is in the block's range on its axis. -/
theorem mem_blk (t : Fin cfg0.N) (i : S8192x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v8).slice (win0_2.rect t)).set ↔ _
  rw [View.set_slice_whole, Rect.mem_set_unit]
  exact Iff.rfl

/-- Every entry (r, f') of the hidden activations is written back by the point 8·(r / 512) + f' / 1024: the output's
    blocks tile the array. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 128 := N_0
  refine ⟨⟨8 * ((i 0).val / 512) + (i 1).val / 1024, by rw [hN]; omega⟩, flush0_2 _, ?_⟩
  rw [mem_blk]
  obtain ⟨-, -, -, -, e20, e21⟩ := idx_facts ⟨8 * ((i 0).val / 512) + (i 1).val / 1024, by rw [hN]; omega⟩
  intro a
  match a with
  | ⟨0, _⟩ =>
    show win0_2.index _ (0 : Fin 2) * 512 ≤ (i 0).val ∧ (i 0).val < win0_2.index _ (0 : Fin 2) * 512 + 512
    rw [e20]; show (8 * ((i 0).val / 512) + (i 1).val / 1024) / 8 * 512 ≤ (i 0).val ∧ (i 0).val < (8 * ((i 0).val / 512) + (i 1).val / 1024) / 8 * 512 + 512
    omega
  | ⟨1, _⟩ =>
    show win0_2.index _ (1 : Fin 2) * 1024 ≤ (i 1).val ∧ (i 1).val < win0_2.index _ (1 : Fin 2) * 1024 + 1024
    rw [e21]; show (8 * ((i 0).val / 512) + (i 1).val / 1024) % 8 * 1024 ≤ (i 1).val ∧ (i 1).val < (8 * ((i 0).val / 512) + (i 1).val / 1024) % 8 * 1024 + 1024
    omega

/-- After the region the hidden activations' array holds, entry by entry, the hidden units of the rows of the x array
    against the rows of the weight array. -/
theorem up_final (V : (c : Dev nD) → (b : Ref sig .tc) → Buf (Elt Ideal) ((c : Thread nD τ).loc b)) (c : Dev nD) :
    (Cert.KernelIdeal.Up.dat0 (F := Ideal) V c).arrAt 2 cfg0.N = hidArr (V c main_v0) (V c main_v1) :=
  (Cert.KernelIdeal.Up.dat0 (F := Ideal) V c).arrAt_eq_of_cover 2 (hidArr (V c main_v0) (V c main_v1))
    (fun t _ => flushed_eq V c t) cover

end Cert.KernelIdeal.UpVal

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.KiDownValMath.lean ====
/-
  The down-projection region's arithmetic on the extended reals, entry by entry.

  The hidden axis of length 8192 is cut into 16 tiles of 512. The accumulator of a row block goes through the ordered
  chain ((0 + s 0) + s 1) + ... + s 15, where s j is the partial contraction over tile j; on the extended reals addition is
  commutative and associative, so the chain is the contraction over the whole axis. The three payloads of the body are
  read at an entry (p, q) of the block: the reset stores 0; the step adds to the accumulator's entry the contraction, over
  the 512 hidden units of the tile, of row p of the activations' block against row q of the down-projection's block (the
  product is against the transposed block); the last step stores the row's own entry plus the accumulator's entry times
  the row's gate.
-/
import proofs.«176752_j57312043598493_1_alg».proof.Proof.Gen.KernelIdeal.Skeleton
import proofs.«176752_j57312043598493_1_alg».proof.Proof.LibTiles
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open Cert.KernelIdeal Cert.KernelIdeal.Gen
open scoped BigOperators

namespace Cert.KernelIdeal.DownVal

/-! ## The ordered chain over the tiles is the sum over the whole axis -/

/-- The accumulator's chain after tile n: ((0 + s 0) + s 1) + ... + s n. -/
def chainTo (s : ℕ → EReal) : ℕ → EReal
  | 0 => 0 + s 0
  | n + 1 => chainTo s n + s (n + 1)

theorem chainTo_zero (s : ℕ → EReal) : chainTo s 0 = 0 + s 0 := rfl
theorem chainTo_succ (s : ℕ → EReal) (n : ℕ) : chainTo s (n + 1) = chainTo s n + s (n + 1) := rfl

/-- The chain is the sum of its terms: only 0 + a = a is used, and the order of the terms is already that of the sum. -/
theorem chainTo_eq_sum (s : ℕ → EReal) (n : ℕ) : chainTo s n = ∑ j ∈ Finset.range (n + 1), s j := by
  induction n with
  | zero => rw [chainTo_zero, zero_add, Finset.sum_range_one]
  | succ n ih => rw [chainTo_succ, ih, Finset.sum_range_succ _ (n + 1)]

/-- Sixteen tiles of 512 fill the axis of 8192: if s j is the sum of g over tile j, the chain through tile 15 is the sum
    of g over the whole axis. -/
theorem chain_tiles (g : Fin 8192 → EReal) (s : ℕ → EReal)
    (hs : ∀ j : Fin 16, s j.val = ∑ k : Fin 512, g ⟨j.val * 512 + k.val, Cert.LibTiles.tile_lt j k⟩) :
    chainTo s 15 = ∑ f : Fin 8192, g f := by
  rw [chainTo_eq_sum, Finset.sum_range (fun j => s j), Cert.LibTiles.tile_sum 16 512 g]
  exact Finset.sum_congr rfl fun j _ => hs j

/-! ## The body's payloads at an entry of the block -/

/-- The reset's block is 0 at every entry. -/
theorem pay1_apply (p : Fin 512) (q : Fin 2048) : (k1_pay1 (F := Ideal)) (ix2 p q) = 0 := by
  unfold k1_pay1
  refine (congrFun (shapeCast_self _ _) _).trans ?_
  exact Ideal.ofBits_zero_f32

/-! The product's operand indices, axis by axis: at result entry i and contraction index c the left operand is read at
    (i 0, c) and the right operand at (c, i 1). -/

theorem lhs_0 (i : S512x2048.Idx) (c : dot_S512x512_S512x2048_S512x2048_1_0_0_1_n_n.contr.Idx) :
    (dot_S512x512_S512x2048_S512x2048_1_0_0_1_n_n.lhsIdx i c 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_1 (i : S512x2048.Idx) (c : dot_S512x512_S512x2048_S512x2048_1_0_0_1_n_n.contr.Idx) :
    (dot_S512x512_S512x2048_S512x2048_1_0_0_1_n_n.lhsIdx i c 1).val = (c ⟨0, by decide⟩).val :=
  dot_S512x512_S512x2048_S512x2048_1_0_0_1_n_n.lhsIdx_val_of_single rfl i c
theorem rhs_0 (i : S512x2048.Idx) (c : dot_S512x512_S512x2048_S512x2048_1_0_0_1_n_n.contr.Idx) :
    (dot_S512x512_S512x2048_S512x2048_1_0_0_1_n_n.rhsIdx i c 0).val = (c ⟨0, by decide⟩).val :=
  dot_S512x512_S512x2048_S512x2048_1_0_0_1_n_n.rhsIdx_val_of_single rfl i c
theorem rhs_1 (i : S512x2048.Idx) (c : dot_S512x512_S512x2048_S512x2048_1_0_0_1_n_n.contr.Idx) :
    (dot_S512x512_S512x2048_S512x2048_1_0_0_1_n_n.rhsIdx i c 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product into the zero block, at entry (p, q): the sum over the 512 contraction positions k of a (p, k) · b (k, q). -/
theorem matmul_zero_apply (a : FVec Ideal S512x512 .bf16) (b : FVec Ideal S512x2048 .bf16) (p : Fin 512) (q : Fin 2048) :
    matmul dot_S512x512_S512x2048_S512x2048_1_0_0_1_n_n none a b (constant (F := Ideal) S512x2048 .f32 0x00000000#32) (ix2 p q)
      = ∑ k : Fin 512, a (ix2 p k) * b (ix2 k q) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p q) ((ValueIdx.contrEquiv1 dot_S512x512_S512x2048_S512x2048_1_0_0_1_n_n 512 rfl rfl).symm k) = ix2 p k := funext fun x => Fin.ext (by
    match x with
    | ⟨0, _⟩ => exact lhs_0 _ _
    | ⟨1, _⟩ => exact (lhs_1 _ _).trans hk)
  have er : dot_S512x512_S512x2048_S512x2048_1_0_0_1_n_n.rhsIdx (ix2 p q) ((ValueIdx.contrEquiv1 dot_S512x512_S512x2048_S512x2048_1_0_0_1_n_n 512 rfl rfl).symm k) = ix2 k q := funext fun x => Fin.ext (by
    match x with
    | ⟨0, _⟩ => exact (rhs_0 _ _).trans hk
    | ⟨1, _⟩ => exact rhs_1 _ _)
  rw [el, er]

/-- The step's block at entry (p, q): the accumulator's entry plus the contraction, over the tile's 512 hidden units k, of
    the activations' block at (p, k) against the down-projection's block at (q, k). -/
theorem pay2_apply (acc : Vec Ideal S512x2048 .f32) (h : Vec Ideal S512x512 .bf16) (w : Vec Ideal S2048x512 .bf16)
    (p : Fin 512) (q : Fin 2048) :
    k1_pay2 acc h w (ix2 p q) = acc (ix2 p q) + ∑ k : Fin 512, h (ix2 p k) * w (ix2 q k) := by
  unfold k1_pay2
  refine (congrFun (shapeCast_self _ _) _).trans ?_
  refine (addf_apply _ _ _).trans ?_
  refine congrArg (acc (ix2 p q) + ·) ?_
  refine (matmul_zero_apply _ _ p q).trans ?_
  refine Finset.sum_congr rfl fun k _ => ?_
  rw [shapeCast_self, transpose_ix2_apply, shapeCast_self]

/-- A column [512, 1] repeated along the rows' entries: entry (p, q) of the broadcast is the column's entry (p, 0). -/
theorem broadcastTo_col_apply (v : S512x1.Idx → EReal) (hb : S512x1.Broadcasts S512x2048) (p : Fin 512) (q : Fin 2048) :
    broadcastTo S512x2048 v hb (ix2 p q) = v (ix2 p (0 : Fin 1)) :=
  broadcastTo_apply v hb (ix2 p q) (ix2 p (0 : Fin 1)) fun a => by
    match a with
    | ⟨0, _⟩ => rfl
    | ⟨1, _⟩ => rfl

/-- The last step's block at entry (p, q): the row's own entry plus the accumulator's entry times the row's gate. -/
theorem pay3_apply (acc : Vec Ideal S512x2048 .f32) (msk : Vec Ideal S512x1 .f32) (x : Vec Ideal S512x2048 .f32)
    (p : Fin 512) (q : Fin 2048) :
    k1_pay3 acc msk x (ix2 p q) = x (ix2 p q) + acc (ix2 p q) * msk (ix2 p (0 : Fin 1)) := by
  unfold k1_pay3
  refine (addf_apply _ _ _).trans ?_
  rw [shapeCast_self]
  refine congrArg (x (ix2 p q) + ·) ?_
  refine (mulf_apply _ _ _).trans ?_
  refine congrArg (acc (ix2 p q) * ·) ?_
  refine (broadcastTo_col_apply _ _ p q).trans ?_
  rw [shapeCast_self]

end Cert.KernelIdeal.DownVal

end
-- ==== Proof.KiDownVal.lean ====
/-
  The down-projection region's value. The grid is 16 x 16: point t = 16·m + f works on row block m (rows 512·m … 512·m + 511
  of the flattened tokens) and on tile f of the hidden axis (hidden units 512·f … 512·f + 511). The accumulator of row block
  m is 0 plus the partial contraction over tile 0 after the point f = 0, and gains the partial contraction over tile f at
  every later point, so after the point f it holds, entry by entry, the ordered chain over tiles 0 … f; after f = 15 that is
  the contraction over all 8192 hidden units. At f = 15 the output block is stored as the rows' own entries plus the
  accumulator times the rows' gates, and only these points write the output array back; their blocks, one per row block,
  tile the array.
-/
import proofs.«176752_j57312043598493_1_alg».proof.Proof.KiDown
import proofs.«176752_j57312043598493_1_alg».proof.Proof.KiDownValMath
import proofs.«176752_j57312043598493_1_alg».proof.Proof.KiValDefs
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Down
open scoped BigOperators

namespace Cert.KernelIdeal.DownVal

/-! ## What each case's stores leave, as the body's payloads -/

section Pieces
variable {F : FTy → Type} [FloatOps F]

theorem hz : (![0, 0] : Fin 2 → Nat) = fun _ => 0 := funext fun a => by fin_cases a <;> rfl

/-- Where f = 0 the accumulator is stored with the zero block, read back, and stored with the first product added. -/
theorem sout_A (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i) (x0 : Vec F S512x512 .bf16) (x1 : Vec F S2048x512 .bf16) (x2 : Vec F S512x2048 .f32) (x3 : Vec F S512x1 .f32) :
    sout1_A_0 c i arg2 harg2 arg3 harg3 arg4 harg4 arg5 harg5 arg6 harg6 arg7 harg7 hc0 hc1 x0 x1 x2 x3 = k1_pay2 (k1_pay1 (F := F)) x0 x1 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S512x2048) hz, View.readCov_unit_zero (S := S512x2048) _ hz]
  simp only [View.readAt_eq_ld, harg2.read_unread, harg3.read_unread, View.ld_unit_zero (S := S512x512) hz, View.ld_unit_zero (S := S2048x512) hz]

/-- Where 0 < f < 15 the accumulator, holding xs0, is stored with the point's product added. -/
theorem sout_B (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i) (x0 : Vec F S512x512 .bf16) (x1 : Vec F S2048x512 .bf16) (x2 : Vec F S512x2048 .f32) (x3 : Vec F S512x1 .f32) (xs0 : Vec F S512x2048 .f32) :
    sout1_B_0 c i arg2 harg2 arg3 harg3 arg4 harg4 arg5 harg5 arg6 harg6 arg7 harg7 hc0 hc1 x0 x1 x2 x3 xs0 = k1_pay2 xs0 x0 x1 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero hz]
  simp only [View.readAt_eq_ld, harg2.read_unread, harg3.read_unread, harg7.read_unread, View.ld_unit_zero (S := S512x512) hz, View.ld_unit_zero (S := S2048x512) hz, View.ld_unit_zero (S := S512x2048) hz]

/-- Where f = 15 the accumulator is updated the same way, -/
theorem sout_C (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i) (x0 : Vec F S512x512 .bf16) (x1 : Vec F S2048x512 .bf16) (x2 : Vec F S512x2048 .f32) (x3 : Vec F S512x1 .f32) (xs0 : Vec F S512x2048 .f32) :
    sout1_C_0 c i arg2 harg2 arg3 harg3 arg4 harg4 arg5 harg5 arg6 harg6 arg7 harg7 hc0 hc1 x0 x1 x2 x3 xs0 = k1_pay2 xs0 x0 x1 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hz]
  simp only [View.readAt_eq_ld, harg2.read_unread, harg3.read_unread, harg7.read_unread, View.ld_unit_zero (S := S512x512) hz, View.ld_unit_zero (S := S2048x512) hz, View.ld_unit_zero (S := S512x2048) hz]

/-- and the output block is stored from the updated accumulator, the rows' gates and the rows' own block. -/
theorem out_C (c : Dev nD) (i : grid1.Coords) (arg2 : Memref sig .tc .vmem S512x512 .bf16) (harg2 : arg2.IsWhole) (arg3 : Memref sig .tc .vmem S2048x512 .bf16) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i) (x0 : Vec F S512x512 .bf16) (x1 : Vec F S2048x512 .bf16) (x2 : Vec F S512x2048 .f32) (x3 : Vec F S512x1 .f32) (xs0 : Vec F S512x2048 .f32) :
    out1_C_4 c i arg2 harg2 arg3 harg3 arg4 harg4 arg5 harg5 arg6 harg6 arg7 harg7 hc0 hc1 x0 x1 x2 x3 xs0 = k1_pay3 (k1_pay2 xs0 x0 x1) x3 x2 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz, View.readCov_unit_zero (S := S512x2048) _ hz]
  simp only [View.readAt_eq_ld, harg2.read_unread, harg3.read_unread, harg4.read_unread, harg5.read_unread, harg7.read_unread, View.ld_unit_zero (S := S512x512) hz, View.ld_unit_zero (S := S2048x512) hz, View.ld_unit_zero (S := S512x2048) hz, View.ld_unit_zero (S := S512x1) hz]

end Pieces

/-! ## The windows' blocks as entries of the arrays -/

section Value
variable (V : (c : Dev nD) → (b : Ref sig .tc) → Buf (Elt Ideal) ((c : Thread nD τ).loc b))

/-- The printed index maps over the grid: at point t = 16·m + f the activations' block is (m, f), the down-projection's
    (0, f), and the rows', the gates' and the output's (m, 0). -/
theorem idx_facts1 : ∀ t : Fin cfg1.N,
    win1_0.index t (0 : Fin 2) = t.val / 16 ∧ win1_0.index t (1 : Fin 2) = t.val % 16
    ∧ win1_1.index t (0 : Fin 2) = 0 ∧ win1_1.index t (1 : Fin 2) = t.val % 16
    ∧ win1_2.index t (0 : Fin 2) = t.val / 16 ∧ win1_2.index t (1 : Fin 2) = 0
    ∧ win1_3.index t (0 : Fin 2) = t.val / 16 ∧ win1_3.index t (1 : Fin 2) = 0
    ∧ win1_4.index t (0 : Fin 2) = t.val / 16 ∧ win1_4.index t (1 : Fin 2) = 0 :=
  (by decide +kernel : ∀ t : Fin grid1.N, _)

/-- The four input blocks at point t and the four arrays, each at its literal shape. -/
abbrev hblk (c : Dev nD) (t : Fin cfg1.N) : Vec Ideal S512x512 .bf16 := iblk1 V c 0 t
abbrev wblk (c : Dev nD) (t : Fin cfg1.N) : Vec Ideal S2048x512 .bf16 := iblk1 V c 1 t
abbrev xblk (c : Dev nD) (t : Fin cfg1.N) : Vec Ideal S512x2048 .f32 := iblk1 V c 2 t
abbrev mblk (c : Dev nD) (t : Fin cfg1.N) : Vec Ideal S512x1 .f32 := iblk1 V c 3 t
abbrev Harr (c : Dev nD) : S8192x8192.Idx → EReal := V c main_v8
abbrev Warr (c : Dev nD) : S2048x8192.Idx → EReal := V c main_v2
abbrev Xarr (c : Dev nD) : S8192x2048.Idx → EReal := V c main_v0
abbrev Marr (c : Dev nD) : S8192x1.Idx → EReal := V c main_v7

/-- Entry (p, k) of the activations' block at point t = 16·m + f is entry (512·m + p, 512·f + k) of the activations. -/
theorem hblk_apply (c : Dev nD) (t : Fin cfg1.N) (p k : Fin 512) (r f : Fin 8192)
    (hr : r.val = t.val / 16 * 512 + p.val) (hf : f.val = t.val % 16 * 512 + k.val) :
    hblk V c t (ix2 p k) = Harr V c (ix2 r f) := by
  obtain ⟨e0, e1, -⟩ := idx_facts1 t
  show iblk1 V c 0 t (ix2 p k) = _
  unfold iblk1
  rw [View.read_apply]
  show V c main_v8 _ = V c main_v8 _
  congr 1
  funext a
  apply Fin.ext
  match a with
  | ⟨0, _⟩ => show win1_0.index t 0 * 512 + 1 * p.val = r.val; rw [e0, hr]; omega
  | ⟨1, _⟩ => show win1_0.index t 1 * 512 + 1 * k.val = f.val; rw [e1, hf]; omega

/-- Entry (q, k) of the down-projection's block is entry (q, 512·f + k) of the down-projection. -/
theorem wblk_apply (c : Dev nD) (t : Fin cfg1.N) (q : Fin 2048) (k : Fin 512) (f : Fin 8192)
    (hf : f.val = t.val % 16 * 512 + k.val) :
    wblk V c t (ix2 q k) = Warr V c (ix2 q f) := by
  obtain ⟨-, -, e0, e1, -⟩ := idx_facts1 t
  show iblk1 V c 1 t (ix2 q k) = _
  unfold iblk1
  rw [View.read_apply]
  show V c main_v2 _ = V c main_v2 _
  congr 1
  funext a
  apply Fin.ext
  match a with
  | ⟨0, _⟩ => show win1_1.index t 0 * 2048 + 1 * q.val = q.val; rw [e0]; omega
  | ⟨1, _⟩ => show win1_1.index t 1 * 512 + 1 * k.val = f.val; rw [e1, hf]; omega

/-- Entry (p, q) of the rows' block is entry (512·m + p, q) of the flattened tokens. -/
theorem xblk_apply (c : Dev nD) (t : Fin cfg1.N) (p : Fin 512) (q : Fin 2048) (r : Fin 8192)
    (hr : r.val = t.val / 16 * 512 + p.val) :
    xblk V c t (ix2 p q) = Xarr V c (ix2 r q) := by
  obtain ⟨-, -, -, -, e0, e1, -⟩ := idx_facts1 t
  show iblk1 V c 2 t (ix2 p q) = _
  unfold iblk1
  rw [View.read_apply]
  show V c main_v0 _ = V c main_v0 _
  congr 1
  funext a
  apply Fin.ext
  match a with
  | ⟨0, _⟩ => show win1_2.index t 0 * 512 + 1 * p.val = r.val; rw [e0, hr]; omega
  | ⟨1, _⟩ => show win1_2.index t 1 * 2048 + 1 * q.val = q.val; rw [e1]; omega

/-- Entry (p, 0) of the gates' block is entry (512·m + p, 0) of the gates. -/
theorem mblk_apply (c : Dev nD) (t : Fin cfg1.N) (p : Fin 512) (r : Fin 8192)
    (hr : r.val = t.val / 16 * 512 + p.val) :
    mblk V c t (ix2 p (0 : Fin 1)) = Marr V c (ix2 r (0 : Fin 1)) := by
  obtain ⟨-, -, -, -, -, -, e0, e1, -⟩ := idx_facts1 t
  show iblk1 V c 3 t (ix2 p (0 : Fin 1)) = _
  unfold iblk1
  rw [View.read_apply]
  show V c main_v7 _ = V c main_v7 _
  congr 1
  funext a
  apply Fin.ext
  match a with
  | ⟨0, _⟩ => show win1_3.index t 0 * 512 + 1 * p.val = r.val; rw [e0, hr]; omega
  | ⟨1, _⟩ => show win1_3.index t 1 * 1 + 1 * 0 = 0; rw [e1]

/-! ## The partial contractions -/

/-- Hidden unit k of tile j (taken below 8192, so that it is defined for every j). -/
def hidIx (j : ℕ) (k : Fin 512) : Fin 8192 := ⟨(j * 512 + k.val) % 8192, Nat.mod_lt _ (by decide)⟩
/-- Row p of row block m (taken below 8192 likewise). -/
def rowIx (m : ℕ) (p : Fin 512) : Fin 8192 := ⟨(m * 512 + p.val) % 8192, Nat.mod_lt _ (by decide)⟩

/-- The partial contraction over tile j of row r of the activations against row q of the down-projection. -/
def tileS (H : S8192x8192.Idx → EReal) (Wp : S2048x8192.Idx → EReal) (r : Fin 8192) (q : Fin 2048) (j : ℕ) : EReal :=
  ∑ k : Fin 512, H (ix2 r (hidIx j k)) * Wp (ix2 q (hidIx j k))

/-- The product the body adds at point t = 16·m + f, at entry (p, q): the partial contraction over tile f for row 512·m + p. -/
theorem prod_at (c : Dev nD) (t : Fin cfg1.N) (p : Fin 512) (q : Fin 2048) :
    ∑ k : Fin 512, hblk V c t (ix2 p k) * wblk V c t (ix2 q k)
      = tileS (Harr V c) (Warr V c) (rowIx (t.val / 16) p) q (t.val % 16) := by
  have hN : t.val < 256 := lt_of_lt_of_eq t.isLt N_1
  unfold tileS
  refine Finset.sum_congr rfl fun k _ => ?_
  have hr : (rowIx (t.val / 16) p).val = t.val / 16 * 512 + p.val := by
    show (t.val / 16 * 512 + p.val) % 8192 = _
    have := p.isLt; omega
  have hf : (hidIx (t.val % 16) k).val = t.val % 16 * 512 + k.val := by
    show (t.val % 16 * 512 + k.val) % 8192 = _
    have := k.isLt; omega
  exact congrArg₂ (· * ·) (hblk_apply V c t p k _ _ hr hf) (wblk_apply V c t q k _ hf)

/-! ## The accumulator point by point -/

/-- At a point with f = 0 the accumulator ends at the zero block plus the point's product. -/
theorem acc_A (c : Dev nD) (t : Fin cfg1.N) (h0 : t.val % 16 = 0) (h1 : ¬t.val % 16 = 15) :
    (outsAt1 V c t.val t.isLt).2 = k1_pay2 (k1_pay1 (F := Ideal)) (hblk V c t) (wblk V c t) := by
  rw [outsAt1_A V c t h0 h1]
  dsimp only
  exact sout_A (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- At a point with 0 < f < 15 it ends at what the point before left plus the point's product. -/
theorem acc_B (c : Dev nD) (t : Fin cfg1.N) (h0 : ¬t.val % 16 = 0) (h1 : ¬t.val % 16 = 15) :
    (outsAt1 V c t.val t.isLt).2 = k1_pay2 (outsAt1 V c (t.val - 1) (Nat.lt_of_le_of_lt (Nat.sub_le _ _) t.isLt)).2 (hblk V c t) (wblk V c t) := by
  rw [outsAt1_B V c t h0 h1]
  dsimp only
  exact sout_B (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- At a point with f = 15 the same, -/
theorem acc_C (c : Dev nD) (t : Fin cfg1.N) (h0 : ¬t.val % 16 = 0) (h1 : t.val % 16 = 15) :
    (outsAt1 V c t.val t.isLt).2 = k1_pay2 (outsAt1 V c (t.val - 1) (Nat.lt_of_le_of_lt (Nat.sub_le _ _) t.isLt)).2 (hblk V c t) (wblk V c t) := by
  rw [outsAt1_C V c t h0 h1]
  dsimp only
  exact sout_C (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-- and the output window's buffer ends at the rows' block plus that accumulator times the gates. -/
theorem fst_C (c : Dev nD) (t : Fin cfg1.N) (h0 : ¬t.val % 16 = 0) (h1 : t.val % 16 = 15) :
    (outsAt1 V c t.val t.isLt).1 = k1_pay3 (outsAt1 V c t.val t.isLt).2 (mblk V c t) (xblk V c t) := by
  rw [acc_C V c t h0 h1, outsAt1_C V c t h0 h1]
  dsimp only
  exact out_C (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

end Value

/-! ## The invariant: the accumulator is the ordered chain over the tiles done so far -/

section Final
variable (V : (c : Dev nD) → (b : Ref sig .tc) → Buf (Elt Ideal) ((c : Thread nD τ).loc b))

/-- After the point n = 16·m + f the accumulator's entry (p, q) is the chain over tiles 0 … f of the partial contractions for
    row 512·m + p against row q of the down-projection: by induction on the point, the chain starting afresh where f = 0. -/
theorem acc_entry (c : Dev nD) : ∀ (n : ℕ) (hn : n < cfg1.N) (p : Fin 512) (q : Fin 2048),
    (outsAt1 V c n hn).2 (ix2 p q) = chainTo (tileS (Harr V c) (Warr V c) (rowIx (n / 16) p) q) (n % 16)
  | 0, hn, p, q => by
    refine (congrFun (acc_A V c ⟨0, hn⟩ rfl (by show ¬(0 : ℕ) % 16 = 15; decide)) (ix2 p q)).trans ?_
    refine (pay2_apply _ _ _ p q).trans ?_
    rw [pay1_apply, prod_at V c ⟨0, hn⟩ p q]
    rfl
  | n + 1, hn, p, q => by
    have hN : n + 1 < 256 := lt_of_lt_of_eq hn N_1
    by_cases h0 : (n + 1) % 16 = 0
    · have h1 : ¬(n + 1) % 16 = 15 := by omega
      refine (congrFun (acc_A V c ⟨n + 1, hn⟩ h0 h1) (ix2 p q)).trans ?_
      refine (pay2_apply _ _ _ p q).trans ?_
      rw [pay1_apply, prod_at V c ⟨n + 1, hn⟩ p q]
      show 0 + tileS (Harr V c) (Warr V c) (rowIx ((n + 1) / 16) p) q ((n + 1) % 16)
        = chainTo (tileS (Harr V c) (Warr V c) (rowIx ((n + 1) / 16) p) q) ((n + 1) % 16)
      rw [h0]
      rfl
    · have ih := acc_entry c n (Nat.lt_of_succ_lt hn) p q
      have step : (outsAt1 V c (n + 1) hn).2
          = k1_pay2 (outsAt1 V c n (Nat.lt_of_succ_lt hn)).2 (hblk V c ⟨n + 1, hn⟩) (wblk V c ⟨n + 1, hn⟩) := by
        by_cases h1 : (n + 1) % 16 = 15
        · exact acc_C V c ⟨n + 1, hn⟩ h0 h1
        · exact acc_B V c ⟨n + 1, hn⟩ h0 h1
      refine (congrFun step (ix2 p q)).trans ?_
      refine (pay2_apply _ _ _ p q).trans ?_
      rw [ih, prod_at V c ⟨n + 1, hn⟩ p q]
      have e1 : (n + 1) / 16 = n / 16 := by omega
      have e2 : (n + 1) % 16 = n % 16 + 1 := by omega
      show chainTo (tileS (Harr V c) (Warr V c) (rowIx (n / 16) p) q) (n % 16)
          + tileS (Harr V c) (Warr V c) (rowIx ((n + 1) / 16) p) q ((n + 1) % 16)
        = chainTo (tileS (Harr V c) (Warr V c) (rowIx ((n + 1) / 16) p) q) ((n + 1) % 16)
      rw [e1, e2]
      rfl

/-- After a point with f = 15 the output window's buffer holds, at entry (p, q), the block's output at row 512·m + p and
    column q: the chain through tile 15 is the contraction over all hidden units. -/
theorem out_entry (c : Dev nD) (t : Fin cfg1.N) (h15 : t.val % 16 = 15) (p : Fin 512) (q : Fin 2048) :
    (outsAt1 V c t.val t.isLt).1 (ix2 p q)
      = outFlat (Harr V c) (Warr V c) (Xarr V c) (Marr V c) (ix2 (rowIx (t.val / 16) p) q) := by
  have hN : t.val < 256 := lt_of_lt_of_eq t.isLt N_1
  have h0 : ¬t.val % 16 = 0 := by omega
  have hr : (rowIx (t.val / 16) p).val = t.val / 16 * 512 + p.val := by
    show (t.val / 16 * 512 + p.val) % 8192 = _
    have := p.isLt; omega
  refine (congrFun (fst_C V c t h0 h15) (ix2 p q)).trans ?_
  refine (pay3_apply _ _ _ p q).trans ?_
  rw [acc_entry V c t.val t.isLt p q, h15, xblk_apply V c t p q _ hr, mblk_apply V c t p _ hr]
  rw [chain_tiles (fun f => Harr V c (ix2 (rowIx (t.val / 16) p) f) * Warr V c (ix2 q f))
    (tileS (Harr V c) (Warr V c) (rowIx (t.val / 16) p) q) (fun j => by
      unfold tileS
      refine Finset.sum_congr rfl fun k _ => ?_
      have e : hidIx j.val k = ⟨j.val * 512 + k.val, Cert.LibTiles.tile_lt j k⟩ :=
        Fin.ext (Nat.mod_eq_of_lt (Cert.LibTiles.tile_lt j k))
      rw [e])]
  rfl

/-! ## From the blocks to the array -/

/-- Entry (p, q) of the output's block at point t = 16·m + f sits at (512·m + p, q) of the output array. -/
theorem emb4 (t : Fin cfg1.N) (p : Fin 512) (q : Fin 2048) :
    ((cfg1.win 4).blk t).view.emb (ix2 p q) = ix2 (rowIx (t.val / 16) p) q := by
  obtain ⟨-, -, -, -, -, -, -, -, e0, e1⟩ := idx_facts1 t
  have hN : t.val < 256 := lt_of_lt_of_eq t.isLt N_1
  funext a
  apply Fin.ext
  match a with
  | ⟨0, _⟩ => show win1_4.index t 0 * 512 + 1 * p.val = (t.val / 16 * 512 + p.val) % 8192; rw [e0]; have := p.isLt; omega
  | ⟨1, _⟩ => show win1_4.index t 1 * 2048 + 1 * q.val = q.val; rw [e1]; omega

/-- What a point with f = 15 writes back is its block of the block's output. -/
theorem flushed_eq (c : Dev nD) (t : Fin cfg1.N) (hf : (cfg1.win 4).flush t = true) :
    (dat1 V c).flushed 4 t
      = ((cfg1.win 4).blk t).view.read (Elt Ideal) (outFlat (V c main_v8) (V c main_v2) (V c main_v0) (V c main_v7)) := by
  have h15 : t.val % 16 = 15 := (flush1_4 t).mp hf
  show (cfg1.win 4).cut (grid1.coords t) ((dat1 V c).after 4 t) = _
  rw [after1_4]
  funext j
  obtain ⟨p, q, rfl⟩ : ∃ (p : Fin 512) (q : Fin 2048), j = ix2 p q := ⟨j 0, j 1, eq_ix2 j⟩
  rw [View.read_apply, emb4 t p q]
  exact out_entry V c t h15 p q

/-- An index of the output array is in point t's block iff each coordinate is in the block's range on its axis. -/
theorem mem_blk4 (t : Fin cfg1.N) (i : S8192x2048.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v9).slice (win1_4.rect t)).set ↔ _
  rw [View.set_slice_whole, Rect.mem_set_unit]
  exact Iff.rfl

/-- Row r of the output array is written back at the point 16·(r / 512) + 15. -/
theorem cover4 (i : S8192x2048.Idx) :
    ∃ t : Fin cfg1.N, (cfg1.win 4).flush t = true ∧ i ∈ ((cfg1.win 4).blk t).view.set := by
  have hi0 : (i 0).val < 8192 := (i 0).isLt
  have hi1 : (i 1).val < 2048 := (i 1).isLt
  have hN : cfg1.N = 256 := N_1
  let t : Fin cfg1.N := ⟨16 * ((i 0).val / 512) + 15, by rw [hN]; omega⟩
  have ht : t.val = 16 * ((i 0).val / 512) + 15 := rfl
  obtain ⟨-, -, -, -, -, -, -, -, e0, e1⟩ := idx_facts1 t
  refine ⟨t, (flush1_4 t).mpr (by rw [ht]; omega), ?_⟩
  rw [mem_blk4]
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 2048 ≤ (i 1).val ∧ (i 1).val < win1_4.index t (1 : Fin 2) * 2048 + 2048; rw [e1]; omega

end Final

/-- The output array after the region: the block's output on flattened tokens, from the activations, the down-projection,
    the flattened tokens and the gates as the region finds them. -/
theorem down_final (V : (c : Dev nD) → (b : Ref sig .tc) → Buf (Elt Ideal) ((c : Thread nD τ).loc b)) (c : Dev nD) :
    (Cert.KernelIdeal.Down.dat1 (F := Ideal) V c).arrAt 4 cfg1.N = outFlat (V c main_v8) (V c main_v2) (V c main_v0) (V c main_v7) :=
  (dat1 V c).arrAt_eq_of_cover 4 (outFlat (V c main_v8) (V c main_v2) (V c main_v0) (V c main_v7))
    (fun t hf => flushed_eq V c t hf) cover4

end Cert.KernelIdeal.DownVal

end
-- ==== Proof.KiValue.lean ====
/-
  What the kernel's program leaves in its result array, at the ideal instance: the host operations before the two
  regions re-lay the tokens as rows, narrow the two projections (the identity on extended reals) and form the gate from
  the router logit's sign; the up-projection region leaves the hidden activations, the down-projection region the gated
  block output on rows, and the last host operation re-lays the rows as [4, 2048, 2048]. Composed, the result array is
  the specification's function of the four argument arrays.
-/
import proofs.«176752_j57312043598493_1_alg».proof.Proof.KiFrame
import proofs.«176752_j57312043598493_1_alg».proof.Proof.KiCompose
import proofs.«176752_j57312043598493_1_alg».proof.Proof.KiUpVal
import proofs.«176752_j57312043598493_1_alg».proof.Proof.KiDownVal
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)
open Cert.KernelIdeal Cert.KernelIdeal.Gen

namespace Cert.KernelIdeal.Val

variable (m : (ℓ : Loc nD τ sig) → Buf (Elt Ideal) ℓ)

/-! ## What the host operations before the regions leave -/

/-- The tokens re-laid as rows. -/
theorem V1_v0 (c : Dev nD) : Fr.V1 m c main_v0
    = shapeCast S8192x2048 (m ((c : Thread nD τ).loc main_arg0)) shapeCasts_S4x2048x2048_S8192x2048 := by
  show StableHlo.after hostOps0 (fun b => m (c, b)) (Proc.devRef .tc main_v0) = _
  after_results <;> rfl
/-- The up-projection, narrowed. -/
theorem V1_v1 (c : Dev nD) : Fr.V1 m c main_v1
    = (truncf (F := Ideal) .bf16 (m ((c : Thread nD τ).loc main_arg1) : (⟨S8192x2048, .f32⟩ : BufTy).Contents (Elt Ideal)) bitsLt_bf16_f32 : (⟨S8192x2048, .bf16⟩ : BufTy).Contents (Elt Ideal)) := by
  show StableHlo.after hostOps0 (fun b => m (c, b)) (Proc.devRef .tc main_v1) = _
  after_results <;> rfl
/-- The down-projection, narrowed. -/
theorem V1_v2 (c : Dev nD) : Fr.V1 m c main_v2
    = (truncf (F := Ideal) .bf16 (m ((c : Thread nD τ).loc main_arg2) : (⟨S2048x8192, .f32⟩ : BufTy).Contents (Elt Ideal)) bitsLt_bf16_f32 : (⟨S2048x8192, .bf16⟩ : BufTy).Contents (Elt Ideal)) := by
  show StableHlo.after hostOps0 (fun b => m (c, b)) (Proc.devRef .tc main_v2) = _
  after_results <;> rfl
/-- The gate: the sign test of each row's logit, as a number. -/
theorem V1_v7 (c : Dev nD) : Fr.V1 m c main_v7
    = (uitofp (F := Ideal) .f32 (cmpf (F := Ideal) .ogt (Host.dotGeneral (F := Ideal) (φ₁ := .f32) (φ₂ := .f32) dot_S8192x2048_S2048x1_S8192x1_1_0_0_1_n_n none
          (shapeCast S8192x2048 (m ((c : Thread nD τ).loc main_arg0) : (⟨S4x2048x2048, .f32⟩ : BufTy).Contents (Elt Ideal)) shapeCasts_S4x2048x2048_S8192x2048)
          (transpose S2048x1 [1, 0] (m ((c : Thread nD τ).loc main_arg3) : (⟨S1x2048, .f32⟩ : BufTy).Contents (Elt Ideal)) transposes_S1x2048_S2048x1_1_0))
        (broadcastInDim S8192x1 ![] bcast_S_S8192x1 (constant (F := Ideal) S_ .f32 0x00000000#32))) : (⟨S8192x1, .f32⟩ : BufTy).Contents (Elt Ideal)) := by
  show StableHlo.after hostOps0 (fun b => m (c, b)) (Proc.devRef .tc main_v7) = _
  after_results <;> rfl

/-! ## Through the two regions -/

theorem V2_v0 (c : Dev nD) : Fr.V2 m c main_v0 = Fr.V1 m c main_v0 :=
  (Fr.W2_arr m c 0).trans (((Up.dat0 (Fr.V1 m) c).arrAt_in 0 rfl _).trans (Up.A_eq0 (Fr.V1 m) c 0))
theorem V2_v2 (c : Dev nD) : Fr.V2 m c main_v2 = Fr.V1 m c main_v2 := Fr.W2_of_ne m c main_v2 (by decide)
theorem V2_v7 (c : Dev nD) : Fr.V2 m c main_v7 = Fr.V1 m c main_v7 := Fr.W2_of_ne m c main_v7 (by decide)
/-- The hidden activations. -/
theorem V2_v8 (c : Dev nD) : Fr.V2 m c main_v8 = UpVal.hidArr (Fr.V1 m c main_v0) (Fr.V1 m c main_v1) :=
  (Fr.W2_arr m c 2).trans (UpVal.up_final (Fr.V1 m) c)
/-- The block's output on rows. -/
theorem V3_v9 (c : Dev nD) : Fr.W3 m c (Proc.devRef .tc main_v9)
    = DownVal.outFlat (Fr.V2 m c main_v8) (Fr.V2 m c main_v2) (Fr.V2 m c main_v0) (Fr.V2 m c main_v7) :=
  (Fr.W3_arr m c 4).trans (DownVal.down_final (Fr.V2 m) c)
/-- The rows re-laid. -/
theorem W4_v10 (c : Dev nD) : Fr.W4 m c (Proc.devRef .tc main_v10)
    = shapeCast S4x2048x2048 (Fr.W3 m c (Proc.devRef .tc main_v9)) shapeCasts_S8192x2048_S4x2048x2048 := by
  show StableHlo.after hostOps2 (Fr.W3 m c) (Proc.devRef .tc main_v10) = _
  after_results <;> rfl

/-- The result array is the specification's function of the four arguments. -/
theorem kernel_value (c : Dev nD) : Fr.W4 m c (Proc.devRef .tc main_v10)
    = Cert.FfnSpec.outArr (m ((c : Thread nD τ).loc main_arg0)) (m ((c : Thread nD τ).loc main_arg1))
        (m ((c : Thread nD τ).loc main_arg2)) (m ((c : Thread nD τ).loc main_arg3)) := by
  rw [W4_v10, V3_v9, V2_v8, V2_v2, V2_v0, V2_v7, V1_v0, V1_v1, V1_v2, V1_v7]
  exact compose_eq _ _ _ _ _ _ _ _ _

/-- The run, read: the result array at the specification, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v10)
        = Cert.FfnSpec.outArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (Fr.mem_uc main_v10 (by decide))).trans (kernel_value m c),
     (h c _ (Fr.mem_uc main_arg0 (by decide))).trans (Fr.W4_main_arg0 m c),
     (h c _ (Fr.mem_uc main_arg1 (by decide))).trans (Fr.W4_main_arg1 m c),
     (h c _ (Fr.mem_uc main_arg2 (by decide))).trans (Fr.W4_main_arg2 m c),
     (h c _ (Fr.mem_uc main_arg3 (by decide))).trans (Fr.W4_main_arg3 m c)⟩)
    (Fr.run_main (F := Ideal) m ρ)

end Cert.KernelIdeal.Val

end
-- ==== Proof.RefValue.lean ====
/-
  The reference program computes the specification (Proof/Spec.lean), entry by entry, on the extended reals.

  Entry (b, t, c) of the reference's result is read back through its operations. Row (b, t) of the input is scaled by
  the reciprocal root of its mean square plus the word 2⁻²³ (the sum of squares starts from the zero word, which adds
  nothing); the scaled row is contracted against each row of the up-projection, clipped below at the zero word and
  squared; that hidden row is contracted against row c of the down-projection. The router's logit l of the row is the
  row against the router's one row (the reshape from [4, 2048, 1] to [4, 2048] reads entry (b, t, 0)).

  The one piece of mathematics is the gate. The reference forms the sigmoid p = 1 / (1 + e^(-l)), the hard decision
  h = [p > 1/2] read as a number, the straight-through value s = (h + p) - p, keeps the product with s where s > 1/2
  and takes the zero word elsewhere. At every extended real l, the infinities included, p is a real number (0 at ⊥,
  1 at ⊤, 1 / (1 + e^(-r)) at a real r), so s = h on the extended reals; and p > 1/2 exactly when l > 0. Hence s is
  the specification's gate [l > 0]: where it is 1 the product is kept and is the product with 1; where it is 0 it is
  not above 1/2, the zero word is taken, and the product with 0 is 0 whatever the other factor is.
-/
import proofs.«176752_j57312043598493_1_alg».proof.Proof.Spec
import proofs.«176752_j57312043598493_1_alg».proof.Proof.Gen.ReferenceIdeal.Read
import Idealize.ShloMosaic.PureOps.Ideal.Laws
import Idealize.ShloMosaic.Lib.ValueIdx

noncomputable section

namespace Cert.ReferenceIdeal.RefValue

open Idealize.ShloMosaic

/-! ## The gate, on abstract extended reals -/

/-- The word `1.0` denotes `1`. -/
theorem ofBits_one : Ideal.ofBits .f32 0x3F800000#32 = 1 := by
  simp [Ideal.ofBits, Ideal.ieee, -EReal.coe_mul]; norm_num

/-- The word `0.5` denotes the real `1/2`. -/
theorem ofBits_half : Ideal.ofBits .f32 0x3F000000#32 = ((1 / 2 : ℝ) : EReal) := by
  simp [Ideal.ofBits, Ideal.ieee, -EReal.coe_mul]; norm_num

/-- The comparison "greater than" answers the bit `1` where it holds … -/
theorem cmp_ogt_of_lt {x y : EReal} (h : y < x) : Ideal.cmp .ogt x y = 1#1 := by
  show BitVec.ofBool (decide (y < x)) = 1#1
  rw [decide_eq_true h]; rfl

/-- … and the bit `0` where it does not. -/
theorem cmp_ogt_of_not_lt {x y : EReal} (h : ¬ y < x) : Ideal.cmp .ogt x y = 0#1 := by
  show BitVec.ofBool (decide (y < x)) = 0#1
  rw [decide_eq_false h]; rfl

/-- The bit `1` read as a number is `1` … -/
theorem bit_one_cast : (((1#1 : BitVec 1).toNat : ℝ) : EReal) = 1 := by
  show (((1 : ℕ) : ℝ) : EReal) = 1
  rw [Nat.cast_one, EReal.coe_one]

/-- … and the bit `0` is `0`. -/
theorem bit_zero_cast : (((0#1 : BitVec 1).toNat : ℝ) : EReal) = 0 := by
  show (((0 : ℕ) : ℝ) : EReal) = 0
  rw [Nat.cast_zero, EReal.coe_zero]

/-- The sigmoid of a logit, spelled as the reference spells it: `1 / (1 + e^(-l))` over the word `1.0`. -/
def sigm (l : EReal) : EReal :=
  Ideal.div (Ideal.ofBits .f32 0x3F800000#32) (Ideal.ofBits .f32 0x3F800000#32 + Ideal.exp (-l))

/-- The hard decision: the bit "the sigmoid is above one half", read as a number. -/
def hard (l : EReal) : EReal := (((Ideal.cmp .ogt (sigm l) (Ideal.ofBits .f32 0x3F000000#32)).toNat : ℝ) : EReal)

/-- The straight-through value: the hard decision plus the sigmoid minus the sigmoid. -/
def ste (l : EReal) : EReal := (hard l + sigm l) - sigm l

/-- The sigmoid of any extended real is a real number (never an infinity: `0` at `⊥`, `1` at `⊤`), and it is above one
    half exactly when the argument is above zero: `1 / (1 + e^(-r)) > 1/2 ↔ e^(-r) < 1 ↔ r > 0`. -/
theorem logistic_real (l : EReal) : ∃ q : ℝ, Ideal.logistic l = (q : EReal) ∧ ((1 / 2 : ℝ) < q ↔ 0 < l) := by
  induction l using EReal.rec with
  | bot => exact ⟨0, by rw [Ideal.logistic_bot, EReal.coe_zero], by simp⟩
  | top => exact ⟨1, by rw [Ideal.logistic_top, EReal.coe_one], by simp; norm_num⟩
  | coe r =>
    refine ⟨(1 + Real.exp (-r))⁻¹, Ideal.logistic_coe r, ?_⟩
    have hpos : (0 : ℝ) < 1 + Real.exp (-r) := by positivity
    rw [EReal.coe_pos, one_div, inv_lt_inv₀ (by norm_num) hpos]
    constructor
    · intro h
      have h1 : Real.exp (-r) < 1 := by linarith
      have h2 := Real.exp_lt_one_iff.mp h1
      linarith
    · intro h
      have h1 : Real.exp (-r) < 1 := Real.exp_lt_one_iff.mpr (by linarith)
      linarith

/-- The gate is `1` above zero and `0` elsewhere. -/
theorem gate_eq (l : EReal) : FfnSpec.gate l = if 0 < l then 1 else 0 := by
  unfold FfnSpec.gate FfnSpec.zero32
  rw [Ideal.ofBits_zero_f32]
  by_cases h : 0 < l
  · rw [cmp_ogt_of_lt h, if_pos h, bit_one_cast]
  · rw [cmp_ogt_of_not_lt h, if_neg h, bit_zero_cast]

/-- The straight-through value IS the gate: the sigmoid is a real number, so adding it and taking it away again leaves
    the hard decision, on the extended reals too; and the hard decision tests the sigmoid against one half, which is
    the logit against zero. -/
theorem ste_eq_gate (l : EReal) : ste l = FfnSpec.gate l := by
  obtain ⟨q, hq, hiff⟩ := logistic_real l
  have hs : sigm l = (q : EReal) := by
    unfold sigm
    rw [ofBits_one]
    exact hq
  have hh : hard l = FfnSpec.gate l := by
    unfold hard
    rw [hs, ofBits_half, gate_eq]
    by_cases h : 0 < l
    · rw [cmp_ogt_of_lt (EReal.coe_lt_coe_iff.mpr (hiff.mpr h)), if_pos h, bit_one_cast]
    · rw [cmp_ogt_of_not_lt (fun h' => h (hiff.mp (EReal.coe_lt_coe_iff.mp h'))), if_neg h, bit_zero_cast]
  unfold ste
  rw [hh, hs, gate_eq]
  by_cases h : 0 < l
  · rw [if_pos h, ← EReal.coe_one, ← EReal.coe_add, ← EReal.coe_sub, add_sub_cancel_right]
  · rw [if_neg h, ← EReal.coe_zero, ← EReal.coe_add, ← EReal.coe_sub, add_sub_cancel_right]

/-- THE GATE LAW. Where the straight-through value is above one half the reference keeps the product with it, elsewhere
    it takes the zero word; either way that is the product with the gate: above zero the gate is `1` and the product is
    kept; elsewhere the gate is `0`, not above one half, and `m * 0 = 0` whatever extended real `m` is. -/
theorem gate_law (l m x : EReal) :
    x + Scalar.select (Ideal.cmp .ogt (ste l) (Ideal.ofBits .f32 0x3F000000#32)) (m * ste l) (Ideal.ofBits .f32 0x00000000#32)
      = x + m * FfnSpec.gate l := by
  rw [ste_eq_gate, gate_eq, ofBits_half, Ideal.ofBits_zero_f32]
  by_cases h : 0 < l
  · rw [if_pos h]
    have hlt : ((1 / 2 : ℝ) : EReal) < 1 := by rw [← EReal.coe_one, EReal.coe_lt_coe_iff]; norm_num
    rw [cmp_ogt_of_lt hlt, ValueIdx.select_one]
  · rw [if_neg h]
    have hnlt : ¬ ((1 / 2 : ℝ) : EReal) < 0 := by rw [← EReal.coe_zero, EReal.coe_lt_coe_iff]; norm_num
    rw [cmp_ogt_of_not_lt hnlt, ValueIdx.select_zero, mul_zero]

/-! ## The reference, stretch by stretch, at an index with explicit coordinates -/

open Cert.ReferenceIdeal Cert.ReferenceIdeal.Gen Cert.ReferenceIdeal.Read Idealize.ShloMosaic.TcCoe Idealize.SL.Sem

section Read

variable (x0 : (⟨S4x2048x2048, .f32⟩ : BufTy).Contents (Elt Ideal)) (x1 : (⟨S8192x2048, .f32⟩ : BufTy).Contents (Elt Ideal))
  (x2 : (⟨S2048x8192, .f32⟩ : BufTy).Contents (Elt Ideal)) (x3 : (⟨S1x2048, .f32⟩ : BufTy).Contents (Elt Ideal))

/-- Row `(b, t)` of the input array. -/
abbrev row (b : Fin 4) (t : Fin 2048) : Fin 2048 → EReal := fun k => x0 (ValueIdx.ix3 b t k)
/-- The up-projection by rows. -/
abbrev upW : Fin 8192 → Fin 2048 → EReal := fun f k => x1 (ValueIdx.ix2 f k)
/-- The down-projection by rows. -/
abbrev downW : Fin 2048 → Fin 8192 → EReal := fun c f => x2 (ValueIdx.ix2 c f)
/-- The router's one row. -/
abbrev routerW : Fin 2048 → EReal := fun k => x3 (ValueIdx.ix2 (0 : Fin 1) k)

/-- The scale broadcast along a row is the row's reciprocal root mean square: the sum of squares starts from the zero
    word, which adds nothing. -/
theorem scale_at (b : Fin 4) (t : Fin 2048) (k : Fin 2048) :
    val_main_v23 (F := Ideal) x0 (ValueIdx.ix3 b t k) = FfnSpec.rrms (row x0 b t) := by
  have hidx : ∀ k' : Fin 2048,
      idx_main_v16 (idx_main_v17 (idx_main_v23 (ValueIdx.ix3 b t k))) k' = ValueIdx.ix3 b t k' := fun k' =>
    funext fun a => Fin.ext (by match a with | ⟨0, _⟩ => rfl | ⟨1, _⟩ => rfl | ⟨2, _⟩ => rfl)
  rw [val_main_v23_apply, val_main_v22_apply, val_main_v21_apply, val_main_v20_apply, val_main_cst_5_apply,
    val_main_v19_apply, val_main_v18_apply, val_main_cst_4_apply, val_main_v17_apply, val_main_v16_apply,
    val_main_cst_3_apply]
  simp only [val_main_v15_apply, hidx, Ideal.hostUnary_rsqrt_def, Ideal.addf_def, Ideal.hostDivf_def, Ideal.mulf_def,
    Ideal.ofBits_def, Ideal.ofBits_zero_f32, zero_add]
  rfl

/-- One hidden unit: the scaled row against row `f` of the up-projection, clipped at the zero word, squared. -/
theorem hid_at (b : Fin 4) (t : Fin 2048) (f : Fin 8192) :
    val_main_v27 (F := Ideal) x0 x1 (ValueIdx.ix3 b t f) = FfnSpec.hid (row x0 b t) (upW x1) f := by
  have hl : ∀ k : Fin 2048, lidx_main_v25 (ValueIdx.ix3 b t f) k = ValueIdx.ix3 b t k := fun k =>
    funext fun a => Fin.ext (by match a with | ⟨0, _⟩ => rfl | ⟨1, _⟩ => rfl | ⟨2, _⟩ => rfl)
  have hr : ∀ k : Fin 2048, ridx_main_v25 (ValueIdx.ix3 b t f) k = ValueIdx.ix2 f k := fun k =>
    funext fun a => Fin.ext (by match a with | ⟨0, _⟩ => rfl | ⟨1, _⟩ => rfl)
  rw [val_main_v27_apply, val_main_v26_apply, val_main_call0_v0_apply, val_main_call0_cst_apply, val_main_v25_apply]
  simp only [hl, hr, val_main_v24_apply, scale_at, Ideal.mulf_def, Ideal.maximumf_def, Ideal.ofBits_def]
  rfl

/-- One feature of the feed-forward image: the hidden row against row `c` of the down-projection. -/
theorem mlp_at (b : Fin 4) (t : Fin 2048) (c : Fin 2048) :
    val_main_v28 (F := Ideal) x0 x1 x2 (ValueIdx.ix3 b t c) = FfnSpec.mlp (row x0 b t) (upW x1) (downW x2) c := by
  have hl : ∀ f : Fin 8192, lidx_main_v28 (ValueIdx.ix3 b t c) f = ValueIdx.ix3 b t f := fun f =>
    funext fun a => Fin.ext (by match a with | ⟨0, _⟩ => rfl | ⟨1, _⟩ => rfl | ⟨2, _⟩ => rfl)
  have hr : ∀ f : Fin 8192, ridx_main_v28 (ValueIdx.ix3 b t c) f = ValueIdx.ix2 c f := fun f =>
    funext fun a => Fin.ext (by match a with | ⟨0, _⟩ => rfl | ⟨1, _⟩ => rfl)
  rw [val_main_v28_apply]
  simp only [hl, hr, hid_at]
  rfl

/-- The router's logit of row `(b, t)`: the reshape from `[4, 2048, 1]` to `[4, 2048]` reads entry `(b, t, 0)`, since
    `(2048 b + t) / 2048 = b` and `(2048 b + t) % 2048 = t`. -/
theorem logit_at (b : Fin 4) (t : Fin 2048) :
    val_main_v1 (F := Ideal) x0 x3 (ValueIdx.ix2 b t) = FfnSpec.logit (row x0 b t) (routerW x3) := by
  have hb : b.val < 4 := b.isLt
  have ht : t.val < 2048 := t.isLt
  have hl : ∀ k : Fin 2048, lidx_main_v0 (idx_main_v1 (ValueIdx.ix2 b t)) k = ValueIdx.ix3 b t k := fun k =>
    funext fun a => Fin.ext (by
      match a with
      | ⟨0, _⟩ => show (b.val * 2048 + t.val) / 2048 = b.val; omega
      | ⟨1, _⟩ => show (b.val * 2048 + t.val) / 1 % 2048 = t.val; omega
      | ⟨2, _⟩ => rfl)
  have hr : ∀ k : Fin 2048, ridx_main_v0 (idx_main_v1 (ValueIdx.ix2 b t)) k = ValueIdx.ix2 (0 : Fin 1) k := fun k =>
    funext fun a => Fin.ext (by match a with | ⟨0, _⟩ => rfl | ⟨1, _⟩ => rfl)
  rw [val_main_v1_apply, val_main_v0_apply]
  simp only [hl, hr]
  rfl

/-- The straight-through value of row `(b, t)`, in the reference's own operations. -/
theorem ste_at (b : Fin 4) (t : Fin 2048) :
    val_main_v12 (F := Ideal) x0 x3 (ValueIdx.ix2 b t) = ste (FfnSpec.logit (row x0 b t) (routerW x3)) := by
  rw [val_main_v12_apply, val_main_v11_apply, val_main_v10_apply, val_main_v9_apply, val_main_v8_apply,
    val_main_cst_1_apply, val_main_v7_apply, val_main_v6_apply, val_main_cst_0_apply, val_main_v5_apply,
    val_main_v4_apply, val_main_cst_apply, val_main_v3_apply, val_main_v2_apply, logit_at]
  rfl

/-- The bit that keeps row `(b, t)`: its straight-through value is above the word `0.5`. -/
theorem keep_at (b : Fin 4) (t : Fin 2048) :
    val_main_v14 (F := Ideal) x0 x3 (ValueIdx.ix2 b t)
      = Ideal.cmp .ogt (ste (FfnSpec.logit (row x0 b t) (routerW x3))) (Ideal.ofBits .f32 0x3F000000#32) := by
  rw [val_main_v14_apply, val_main_v13_apply, val_main_cst_2_apply, ste_at]
  rfl

end Read

/-- The reference computes the specification, entry by entry. -/
theorem ref_value (x0 : (⟨S4x2048x2048, .f32⟩ : BufTy).Contents (Elt Ideal)) (x1 : (⟨S8192x2048, .f32⟩ : BufTy).Contents (Elt Ideal))
    (x2 : (⟨S2048x8192, .f32⟩ : BufTy).Contents (Elt Ideal)) (x3 : (⟨S1x2048, .f32⟩ : BufTy).Contents (Elt Ideal)) :
    Cert.ReferenceIdeal.Read.val_main_v34 (F := Ideal) x0 x1 x2 x3 = Cert.FfnSpec.outArr x0 x1 x2 x3 := by
  funext i
  obtain ⟨b, t, c, rfl⟩ : ∃ (b : Fin 4) (t : Fin 2048) (c : Fin 2048), i = ValueIdx.ix3 b t c :=
    ⟨i 0, i 1, i 2, ValueIdx.eq_ix3 i⟩
  have h1 : idx_main_v29 (idx_main_call1_v1 (ValueIdx.ix3 b t c)) = ValueIdx.ix2 b t :=
    funext fun a => Fin.ext (by match a with | ⟨0, _⟩ => rfl | ⟨1, _⟩ => rfl)
  have h2 : idx_main_v30 (idx_main_v31 (ValueIdx.ix3 b t c)) = ValueIdx.ix2 b t :=
    funext fun a => Fin.ext (by match a with | ⟨0, _⟩ => rfl | ⟨1, _⟩ => rfl)
  rw [val_main_v34_apply, val_main_v33_apply, val_main_call1_v2_apply, val_main_call1_v0_apply, val_main_cst_6_apply,
    val_main_v32_apply, val_main_v31_apply, val_main_v30_apply, val_main_call1_v1_apply, val_main_v29_apply,
    h1, h2, keep_at, ste_at, mlp_at]
  exact gate_law _ _ _

end Cert.ReferenceIdeal.RefValue

end
-- ==== Proof.lean ====
/-
  The certificate of the mixture-of-depth feed-forward block: a kernel of two pipelined regions (the up-projection with
  its normalisation, clipping and squaring; the down-projection accumulated over sixteen tiles of the hidden axis, gated
  and added back to the tokens) against the dense jnp reference.

  The three frames: each kernel program's run over its four segments (host operations, the two regions, a reshape)
  ends with every argument array as launched; the reference's run is its generated read-back with the result dropped.
  The idealisation rewrote nothing, so `preserves` is `True`. At the ideal instance both programs end with the result
  array at one function of the four arguments, the specification of Proof/Spec.lean: the kernel's by reading the two
  regions' output arrays back through the pipeline's write-backs (the sixteen tile sums of the accumulator are the sum
  over the whole hidden axis, on the extended reals by associativity alone), the reference's by reading its operations
  at an index, where the straight-through gate `(h + p) - p` of the sigmoid `p` is the indicator of a positive logit
  because `p` is a real number in [0, 1] at every extended real and exceeds one half exactly when the logit is positive.
-/
import proofs.«176752_j57312043598493_1_alg».proof.Defs
import proofs.«176752_j57312043598493_1_alg».proof.Proof.Gen.Kernel
import proofs.«176752_j57312043598493_1_alg».proof.Proof.Gen.KernelIdeal
import proofs.«176752_j57312043598493_1_alg».proof.Proof.Gen.ReferenceIdeal
import proofs.«176752_j57312043598493_1_alg».proof.Proof.Gen.Pre_finite_inputs
import proofs.«176752_j57312043598493_1_alg».proof.Proof.Gen.ReferenceIdeal.Run
import proofs.«176752_j57312043598493_1_alg».proof.Proof.Gen.ReferenceIdeal.Read
import proofs.«176752_j57312043598493_1_alg».proof.Proof.KFrame
import proofs.«176752_j57312043598493_1_alg».proof.Proof.KiFrame
import proofs.«176752_j57312043598493_1_alg».proof.Proof.KiValue
import proofs.«176752_j57312043598493_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result array at the specification's function of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.FfnSpec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_value,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
